-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4x1024 : Shape := ⟨3, ![8192, 4, 1024]⟩
abbrev S8192x4x1 : Shape := ⟨3, ![8192, 4, 1]⟩
abbrev S1024x1024 : Shape := ⟨2, ![1024, 1024]⟩
abbrev S1024 : Shape := ⟨1, ![1024]⟩
abbrev S_ : Shape := ⟨0, ![]⟩

class Facts : Prop where
  bcast_S_S8192x4x1024 : S_.BroadcastsInDim S8192x4x1024 (![] : Fin 0 → Fin S8192x4x1024.rank)
  reducesTo_S8192x4x1024_S_d0_1_2 : S8192x4x1024.ReducesTo [0, 1, 2] S_
  h_S_ : 0 < S_.numel
  bcast_S_S8192x4x1 : S_.BroadcastsInDim S8192x4x1 (![] : Fin 0 → Fin S8192x4x1.rank)
  reducesTo_S8192x4x1_S_d0_1_2 : S8192x4x1.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024x1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x4x1024 .f32) (main_arg1 : FVec F S8192x4x1 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S8192x4x1024 .f32 := Host.absf main_arg0
  let main_cst : FVec F S_ .f32 := constant S_ .f32 0x7F800000#32
  let main_v1 : FVec F S8192x4x1024 .f32 := broadcastInDim S8192x4x1024 ![] bcast_S_S8192x4x1024 main_cst
  let main_v2 : IVec S8192x4x1024 1 := cmpf .olt main_v0 main_v1
  let main_c : IVec S_ 1 := constantI S_ 1 1#1
  let main_v3 : IVec S_ 1 := (fun x v => Host.reduce IntOp.andi x v reducesTo_S8192x4x1024_S_d0_1_2 h_S_) main_v2 main_c
  let main_v4 : FVec F S8192x4x1 .f32 := Host.absf main_arg1
  let main_cst_0 : FVec F S_ .f32 := constant S_ .f32 0x7F800000#32
  let main_v5 : FVec F S8192x4x1 .f32 := broadcastInDim S8192x4x1 ![] bcast_S_S8192x4x1 main_cst_0
  let main_v6 : IVec S8192x4x1 1 := cmpf .olt main_v4 main_v5
  let main_c_1 : IVec S_ 1 := constantI S_ 1 1#1
  let main_v7 : IVec S_ 1 := (fun x v => Host.reduce IntOp.andi x v reducesTo_S8192x4x1_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S8192x4x1024 : Shape := ⟨3, ![8192, 4, 1024]⟩
abbrev S8192x4x1 : Shape := ⟨3, ![8192, 4, 1]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S4x8192x1024 : Shape := ⟨3, ![4, 8192, 1024]⟩
abbrev S4x8192x1 : Shape := ⟨3, ![4, 8192, 1]⟩
abbrev S8192x1024 : Shape := ⟨2, ![8192, 1024]⟩
abbrev S4x256x1024 : Shape := ⟨3, ![4, 256, 1024]⟩
abbrev S4x256x1 : Shape := ⟨3, ![4, 256, 1]⟩
abbrev S256x1024 : Shape := ⟨2, ![256, 1024]⟩
abbrev S1x256x1024 : Shape := ⟨3, ![1, 256, 1024]⟩
abbrev S256x3072 : Shape := ⟨2, ![256, 3072]⟩
abbrev S1x3072 : Shape := ⟨2, ![1, 3072]⟩
abbrev S1x256x1 : Shape := ⟨3, ![1, 256, 1]⟩
abbrev S256x1 : Shape := ⟨2, ![256, 1]⟩
abbrev S256 : Shape := ⟨1, ![256]⟩
abbrev S1x1024 : Shape := ⟨2, ![1, 1024]⟩

abbrev nBuf : Space → Nat
  | .hbm => 23
  | .vmem => 10
  | .smem => 0
  | _ => 0

abbrev bufTy : (tb : Table) → Fin (tcTables nBuf tb) → BufTy
  | .hbm, ⟨0, _⟩ => ⟨S8192x4x1024, .f32⟩
  | .hbm, ⟨1, _⟩ => ⟨S8192x4x1, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x3072, .bf16⟩
  | .hbm, ⟨17, _⟩ => ⟨S3072, .f32⟩
  | .hbm, ⟨18, _⟩ => ⟨S1024x1024, .f32⟩
  | .hbm, ⟨19, _⟩ => ⟨S1024x1024, .bf16⟩
  | .hbm, ⟨20, _⟩ => ⟨S4x8192x1024, .f32⟩
  | .hbm, ⟨21, _⟩ => ⟨S4x8192x1, .f32⟩
  | .hbm, ⟨22, _⟩ => ⟨S8192x1024, .f32⟩
  | .local _ .vmem, ⟨0, _⟩ => ⟨S4x256x1024, .f32⟩
  | .local _ .vmem, ⟨1, _⟩ => ⟨S4x256x1024, .f32⟩
  | .local _ .vmem, ⟨2, _⟩ => ⟨S4x256x1, .f32⟩
  | .local _ .vmem, ⟨3, _⟩ => ⟨S4x256x1, .f32⟩
  | .local _ .vmem, ⟨4, _⟩ => ⟨S1024x3072, .bf16⟩
  | .local _ .vmem, ⟨5, _⟩ => ⟨S3072, .f32⟩
  | .local _ .vmem, ⟨6, _⟩ => ⟨S1024x1024, .bf16⟩
  | .local _ .vmem, ⟨7, _⟩ => ⟨S1024, .f32⟩
  | .local _ .vmem, ⟨8, _⟩ => ⟨S256x1024, .f32⟩
  | .local _ .vmem, ⟨9, _⟩ => ⟨S256x1024, .f32⟩
  | _, _ => ⟨S8192x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1024x1024_S1024x1024_1_0 : S1024x1024.Transposes [1, 0] S1024x1024
  bitsLt_bf16_f32 : FTy.bits .bf16 < FTy.bits .f32
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  transposes_S8192x4x1024_S4x8192x1024_1_0_2 : S8192x4x1024.Transposes [1, 0, 2] S4x8192x1024
  transposes_S8192x4x1_S4x8192x1_1_0_2 : S8192x4x1.Transposes [1, 0, 2] S4x8192x1
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  inb_S4x256x1024_S1x256x1024_0_0_0 : ∀ a, (![0, 0, 0] : Fin 3 → Nat) a + S1x256x1024.size a ≤ S4x256x1024.size a
  h_S1x256x1024 : 0 < S1x256x1024.numel
  shapeCasts_S1x256x1024_S256x1024 : S1x256x1024.ShapeCasts S256x1024
  shapeCasts_S3072_S1x3072 : S3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  inb_S4x256x1024_S1x256x1024_1_0_0 : ∀ a, (![1, 0, 0] : Fin 3 → Nat) a + S1x256x1024.size a ≤ S4x256x1024.size a
  inb_S4x256x1024_S1x256x1024_2_0_0 : ∀ a, (![2, 0, 0] : Fin 3 → Nat) a + S1x256x1024.size a ≤ S4x256x1024.size a
  inb_S4x256x1024_S1x256x1024_3_0_0 : ∀ a, (![3, 0, 0] : Fin 3 → Nat) a + S1x256x1024.size a ≤ S4x256x1024.size a
  inb_S4x256x1_S1x256x1_0_0_0 : ∀ a, (![0, 0, 0] : Fin 3 → Nat) a + S1x256x1.size a ≤ S4x256x1.size a
  h_S1x256x1 : 0 < S1x256x1.numel
  shapeCasts_S1x256x1_S256x1 : S1x256x1.ShapeCasts S256x1
  reduces_S256x1024_S256 : S256x1024.Reduces [1] S256
  shapeCasts_S256_S256x1 : S256.ShapeCasts S256x1
  broadcasts_S256x1_S256x1024 : S256x1.Broadcasts S256x1024
  inb_S4x256x1_S1x256x1_1_0_0 : ∀ a, (![1, 0, 0] : Fin 3 → Nat) a + S1x256x1.size a ≤ S4x256x1.size a
  inb_S4x256x1_S1x256x1_2_0_0 : ∀ a, (![2, 0, 0] : Fin 3 → Nat) a + S1x256x1.size a ≤ S4x256x1.size a
  inb_S4x256x1_S1x256x1_3_0_0 : ∀ a, (![3, 0, 0] : Fin 3 → Nat) a + S1x256x1.size a ≤ S4x256x1.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  dot_S256x1024_S1024x3072_S256x3072_1_0_0_1_n_n_wf : DotDims.WF S256x1024 S1024x3072 S256x3072 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x1024.size a ≤ S4x8192x1024.size a
  hwx0_0 : ∀ i : grid0.Coords, EltTy.bits .f32 = 32 ∨ (Rect.block (s := S4x8192x1024) S4x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x1.size a ≤ S4x8192x1.size a
  hwx0_1 : ∀ i : grid0.Coords, EltTy.bits .f32 = 32 ∨ (Rect.block (s := S4x8192x1) S4x256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072.size a ≤ S3072.size a
  hwx0_3 : ∀ i : grid0.Coords, EltTy.bits .f32 = 32 ∨ (Rect.block (s := S3072) S3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v10) S4x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x4x1024 : Shape := ⟨3, ![8192, 4, 1024]⟩
abbrev S8192x4x1 : Shape := ⟨3, ![8192, 4, 1]⟩
abbrev S1024x1024 : Shape := ⟨2, ![1024, 1024]⟩
abbrev S1024 : Shape := ⟨1, ![1024]⟩
abbrev S1x1x1024 : Shape := ⟨3, ![1, 1, 1024]⟩
abbrev S8192x4x4 : Shape := ⟨3, ![8192, 4, 4]⟩
abbrev S_ : Shape := ⟨0, ![]⟩
abbrev S8192x4 : Shape := ⟨2, ![8192, 4]⟩
abbrev S8192x1024 : Shape := ⟨2, ![8192, 1024]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x4x1024, .f32⟩
  | .hbm, ⟨1, _⟩ => ⟨S8192x4x1, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S8192x4x1024, .f32⟩
  | .hbm, ⟨11, _⟩ => ⟨S1x1x1024, .f32⟩
  | .hbm, ⟨12, _⟩ => ⟨S8192x4x1024, .f32⟩
  | .hbm, ⟨13, _⟩ => ⟨S8192x4x1024, .f32⟩
  | .hbm, ⟨14, _⟩ => ⟨S8192x4x1024, .f32⟩
  | .hbm, ⟨15, _⟩ => ⟨S1x1x1024, .f32⟩
  | .hbm, ⟨16, _⟩ => ⟨S8192x4x1024, .f32⟩
  | .hbm, ⟨17, _⟩ => ⟨S8192x4x1024, .f32⟩
  | .hbm, ⟨18, _⟩ => ⟨S8192x4x1024, .f32⟩
  | .hbm, ⟨19, _⟩ => ⟨S1x1x1024, .f32⟩
  | .hbm, ⟨20, _⟩ => ⟨S8192x4x1024, .f32⟩
  | .hbm, ⟨21, _⟩ => ⟨S8192x4x1024, .f32⟩
  | .hbm, ⟨22, _⟩ => ⟨S8192x4x4, .f32⟩
  | .hbm, ⟨23, _⟩ => ⟨S_, .f32⟩
  | .hbm, ⟨24, _⟩ => ⟨S_, .f32⟩
  | .hbm, ⟨25, _⟩ => ⟨S8192x4x4, .f32⟩
  | .hbm, ⟨26, _⟩ => ⟨S8192x4x4, .f32⟩
  | .hbm, ⟨27, _⟩ => ⟨S8192x4x4, .f32⟩
  | .hbm, ⟨28, _⟩ => ⟨S8192x4x4, .f32⟩
  | .hbm, ⟨29, _⟩ => ⟨S_, .f32⟩
  | .hbm, ⟨30, _⟩ => ⟨S8192x4, .f32⟩
  | .hbm, ⟨31, _⟩ => ⟨S_, .f32⟩
  | .hbm, ⟨32, _⟩ => ⟨S8192x4, .f32⟩
  | .hbm, ⟨33, _⟩ => ⟨S8192x4, .f32⟩
  | .hbm, ⟨34, _⟩ => ⟨S8192x4x1, .f32⟩
  | .hbm, ⟨35, _⟩ => ⟨S8192x4x4, .f32⟩
  | .hbm, ⟨36, _⟩ => ⟨S8192x4x4, .f32⟩
  | .hbm, ⟨37, _⟩ => ⟨S8192x4x4, .f32⟩
  | .hbm, ⟨38, _⟩ => ⟨S_, .f32⟩
  | .hbm, ⟨39, _⟩ => ⟨S8192x4, .f32⟩
  | .hbm, ⟨40, _⟩ => ⟨S8192x4x1, .f32⟩
  | .hbm, ⟨41, _⟩ => ⟨S8192x4x4, .f32⟩
  | .hbm, ⟨42, _⟩ => ⟨S8192x4x4, .f32⟩
  | .hbm, ⟨43, _⟩ => ⟨S8192x4x1024, .f32⟩
  | .hbm, ⟨44, _⟩ => ⟨S_, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S1024x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | _, _ => ⟨S8192x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8192x4x1024_0_1_2 : S1x1x1024.BroadcastsInDim S8192x4x1024 (![0, 1, 2] : Fin 3 → Fin S8192x4x1024.rank)
  bcast_S_S8192x4x4 : S_.BroadcastsInDim S8192x4x4 (![] : Fin 0 → Fin S8192x4x4.rank)
  bcast_S8192x4x1_S8192x4x4_0_1_2 : S8192x4x1.BroadcastsInDim S8192x4x4 (![0, 1, 2] : Fin 3 → Fin S8192x4x4.rank)
  reducesTo_S8192x4x4_S8192x4_d2 : S8192x4x4.ReducesTo [2] S8192x4
  h_S_ : 0 < S_.numel
  bcast_S_S8192x4 : S_.BroadcastsInDim S8192x4 (![] : Fin 0 → Fin S8192x4.rank)
  bcast_S8192x4_S8192x4x1_0_1 : S8192x4.BroadcastsInDim S8192x4x1 (![0, 1] : Fin 2 → Fin S8192x4x1.rank)
  reducesTo_S8192x4x1024_S8192x1024_d1 : S8192x4x1024.ReducesTo [1] S8192x1024
  bcast_S_S8192x1024 : S_.BroadcastsInDim S8192x1024 (![] : Fin 0 → Fin S8192x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x4x1024_S1024x1024_S8192x4x1024_2_1_01_0_n_n_wf : DotDims.WF S8192x4x1024 S1024x1024 S8192x4x1024 [2] [1] [0, 1] [0] [] []
  dot_S8192x4x1024_S8192x4x1024_S8192x4x4_2_2_1_1_0_0_wf : DotDims.WF S8192x4x1024 S8192x4x1024 S8192x4x4 [2] [2] [1] [1] [0] [0]
  dot_S8192x4x4_S8192x4x1024_S8192x4x1024_2_1_1_2_0_0_wf : DotDims.WF S8192x4x4 S8192x4x1024 S8192x4x1024 [2] [1] [1] [2] [0] [0]
  dot_S8192x1024_S1024x1024_S8192x1024_1_0_0_1_n_n_wf : DotDims.WF S8192x1024 S1024x1024 S8192x1024 [1] [0] [0] [1] [] []

variable [Facts₀]

def dot_S8192x4x1024_S1024x1024_S8192x4x1024_2_1_01_0_n_n : DotDims S8192x4x1024 S1024x1024 S8192x4x1024 where
  lhsContracting := [2]
  rhsContracting := [1]
  lhsNonContracting := [0, 1]
  rhsNonContracting := [0]
  lhsBatch := []
  rhsBatch := []
  wf := dot_S8192x4x1024_S1024x1024_S8192x4x1024_2_1_01_0_n_n_wf
def dot_S8192x4x1024_S8192x4x1024_S8192x4x4_2_2_1_1_0_0 : DotDims S8192x4x1024 S8192x4x1024 S8192x4x4 where
  lhsContracting := [2]
  rhsContracting := [2]
  lhsNonContracting := [1]
  rhsNonContracting := [1]
  lhsBatch := [0]
  rhsBatch := [0]
  wf := dot_S8192x4x1024_S8192x4x1024_S8192x4x4_2_2_1_1_0_0_wf
def dot_S8192x4x4_S8192x4x1024_S8192x4x1024_2_1_1_2_0_0 : DotDims S8192x4x4 S8192x4x1024 S8192x4x1024 where
  lhsContracting := [2]
  rhsContracting := [1]
  lhsNonContracting := [1]
  rhsNonContracting := [2]
  lhsBatch := [0]
  rhsBatch := [0]
  wf := dot_S8192x4x4_S8192x4x1024_S8192x4x1024_2_1_1_2_0_0_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.FrameKernel.lean ====
/-
  The frame of `Kernel`: @main's twelve host operations (four transposes with their narrowings, the two
  three-piece concatenations of the projection weights and biases, the two modality-first transposes) followed
  by the one pipelined region over the 32 batch tiles. At each tile the body reads the tile's four modality
  slabs of features and confidences and the whole weight and bias arrays, and stores one 256 x 1024 block of
  the result; nothing is carried between tiles. Stated here: the buffers as the region finds them, each
  window's block at a tile, what the body leaves in the result's staging buffer as a function of the blocks it
  read (`bodyVal`, the skeleton's payloads composed along the body's data flow), the body's triple, the
  pipeline's proof data, the body obligation, the run, and the frame claim.
-/
import proofs.«411035_j70385924046872_3_alg».proof.Proof.Gen.Kernel.Launch
import proofs.«411035_j70385924046872_3_alg».proof.Proof.Gen.Kernel.Skeleton
import proofs.«411035_j70385924046872_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the twelve host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every tile, fetched there or not: a window whose
    block index does not move (the weights and biases) still holds the block fetched at the first tile. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays end as launched: nine of them no window stages and no host operation writes; the output
    bias is the sixth window's array, an input the pipeline only reads. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 5).trans (((dats 0 c).arrAt_in 5 rfl _).trans ((hA c 5).trans (V_main_arg9 m c)))⟩) h

/-! ## The body's accesses -/

abbrev rF0 : Rect S4x256x1024 := Rect.unit (s := S4x256x1024) ![0, 0, 0] S1x256x1024.size inb_S4x256x1024_S1x256x1024_0_0_0
abbrev rF1 : Rect S4x256x1024 := Rect.unit (s := S4x256x1024) ![1, 0, 0] S1x256x1024.size inb_S4x256x1024_S1x256x1024_1_0_0
abbrev rF2 : Rect S4x256x1024 := Rect.unit (s := S4x256x1024) ![2, 0, 0] S1x256x1024.size inb_S4x256x1024_S1x256x1024_2_0_0
abbrev rF3 : Rect S4x256x1024 := Rect.unit (s := S4x256x1024) ![3, 0, 0] S1x256x1024.size inb_S4x256x1024_S1x256x1024_3_0_0
abbrev rC0 : Rect S4x256x1 := Rect.unit (s := S4x256x1) ![0, 0, 0] S1x256x1.size inb_S4x256x1_S1x256x1_0_0_0
abbrev rC1 : Rect S4x256x1 := Rect.unit (s := S4x256x1) ![1, 0, 0] S1x256x1.size inb_S4x256x1_S1x256x1_1_0_0
abbrev rC2 : Rect S4x256x1 := Rect.unit (s := S4x256x1) ![2, 0, 0] S1x256x1.size inb_S4x256x1_S1x256x1_2_0_0
abbrev rC3 : Rect S4x256x1 := Rect.unit (s := S4x256x1) ![3, 0, 0] S1x256x1.size inb_S4x256x1_S1x256x1_3_0_0
abbrev rW : Rect S1024x3072 := Rect.unit (s := S1024x3072) ![0, 0] S1024x3072.size inb_S1024x3072_S1024x3072_0_0
abbrev rB : Rect S3072 := Rect.unit (s := S3072) ![0] S3072.size inb_S3072_S3072_0
abbrev rWo : Rect S1024x1024 := Rect.unit (s := S1024x1024) ![0, 0] S1024x1024.size inb_S1024x1024_S1024x1024_0_0
abbrev rBo : Rect S1024 := Rect.unit (s := S1024) ![0] S1024.size inb_S1024_S1024_0
abbrev rO : Rect S256x1024 := Rect.unit (s := S256x1024) ![0, 0] S256x1024.size inb_S256x1024_S256x1024_0_0

/-! ## What the body stores -/

/-- The block the body stores, from the six blocks it reads: per modality the projected queries, keys and values
    (three column bands of one product with the concatenated weights), per query modality the four scaled and
    confidence-weighted scores, their stabilised exponentials and the normalised mixture of the values, the four
    mixtures summed and averaged, and the output projection. The skeleton's payloads, composed as the body passes
    them on. -/
def bodyVal (x0 : Vec F S4x256x1024 .f32) (x1 : Vec F S4x256x1 .f32) (x2 : Vec F S1024x3072 .bf16) (x3 : Vec F S3072 .f32) (x4 : Vec F S1024x1024 .bf16) (x5 : Vec F S1024 .f32) : FVec F S256x1024 .f32 :=
  let v0 := View.ld x2 rW
  let v2 := View.ld x3 rB
  let v4 := View.ld x0 rF0
  let v14 := View.ld x0 rF1
  let v24 := View.ld x0 rF2
  let v34 := View.ld x0 rF3
  let v11 := k0_pay4 v0 v2 v4
  let v12 := k0_pay5 v0 v2 v4
  let v13 := k0_pay6 v0 v2 v4
  let v21 := k0_pay8 v0 v2 v14
  let v22 := k0_pay9 v0 v2 v14
  let v23 := k0_pay10 v0 v2 v14
  let v31 := k0_pay12 v0 v2 v24
  let v32 := k0_pay13 v0 v2 v24
  let v33 := k0_pay14 v0 v2 v24
  let v37 := k0_pay15 v0 v34
  let v39 := k0_pay16 (F := F) v2
  let v44 := View.ld x1 rC0
  let v41 := k0_pay18 v37 v39
  let v42 := k0_pay19 v37 v39
  let v43 := k0_pay20 v37 v39
  let v76 := k0_pay28 v11 v12 v22 v32 v37 v39 v44
  let v78 := k0_pay29 v11 v12 v22 v32 v37 v39 v44
  let v80 := k0_pay30 v11 v12 v22 v32 v37 v39 v44
  let v85 := k0_pay31 v11 v12 v22 v32 v37 v39 v44
  let v87 := k0_pay32 v11 v12 v22 v32 v37 v39 v44
  let v101 := View.ld x1 rC1
  let v100 := k0_pay33 v13 v23 v33 v43 v76 v78 v80 v85 v87
  let v131 := k0_pay40 v12 v21 v22 v32 v42 v101
  let v133 := k0_pay41 v12 v21 v22 v32 v42 v101
  let v135 := k0_pay42 v12 v21 v22 v32 v42 v101
  let v136 := k0_pay43 v12 v21 v22 v32 v42 v101
  let v159 := View.ld x1 rC2
  let v158 := k0_pay44 v13 v23 v33 v43 v100 v131 v133 v135 v136
  let v166 := k0_pay46 v12 v31 v159
  let v172 := k0_pay47 v22 v31 v159
  let v178 := k0_pay48 v31 v32 v159
  let v184 := k0_pay49 v31 v42 v159
  let v217 := View.ld x1 rC3
  let v216 := k0_pay50 v13 v23 v33 v43 v158 v166 v172 v178 v184
  let v218 := k0_pay51 v217
  let v224 := k0_pay52 v12 v41 v217
  let v230 := k0_pay53 v22 v41 v217
  let v233 := k0_pay54 v32 v41
  let v234 := k0_pay55 (F := F)
  let v278 := View.ld x4 rWo
  let v281 := View.ld x5 rBo
  k0_pay56 v13 v23 v33 v41 v42 v43 v216 v218 v224 v230 v233 v234 v278 v281

/-- The result window's staging buffer after the body: its one store, of `bodyVal`, over the whole block. -/
def out0_6 (x0 : Vec F S4x256x1024 .f32) (x1 : Vec F S4x256x1 .f32) (x2 : Vec F S1024x3072 .bf16) (x3 : Vec F S3072 .f32) (x4 : Vec F S1024x1024 .bf16) (x5 : Vec F S1024 .f32) : Vec F S256x1024 .f32 :=
  View.canon [⟨rO, bodyVal x0 x1 x2 x3 x4 x5⟩]

/-- The one store covers the block. -/
theorem cover0_6 (p0 : Vec F S256x1024 .f32) (y : S256x1024.Idx) :
    ∃ pc ∈ ([⟨rO, p0⟩] : List (View.Piece (Elt F) S256x1024 .f32)), y ∈ pc.1.set :=
  View.cover_of_tiled [⟨rO, p0⟩] S256x1024.size (by rfl) y

/-! ## The body's triple -/

set_option maxHeartbeats 4000000 in
/-- The body on whole staging memrefs, the six inputs' at read contents `x0 … x5` and the result's at anything, runs
    to the continuation with the inputs' as they were and the result's at `out0_6` of them. -/
theorem sound_kernel (c : Dev nD) (E : Set ℕ) (i : grid0.Coords) (arg1 : Memref sig .tc .vmem S4x256x1024 .f32) (harg1 : arg1.IsWhole) (arg2 : Memref sig .tc .vmem S4x256x1 .f32) (harg2 : arg2.IsWhole) (arg3 : Memref sig .tc .vmem S1024x3072 .bf16) (harg3 : arg3.IsWhole) (arg4 : Memref sig .tc .vmem S3072 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S256x1024 .f32) (harg7 : arg7.IsWhole)
    (x0 : Vec F S4x256x1024 .f32) (x1 : Vec F S4x256x1 .f32) (x2 : Vec F S1024x3072 .bf16) (x3 : Vec F S3072 .f32) (x4 : Vec F S1024x1024 .bf16) (x5 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__attention_fusion_kernel i arg1 harg1 arg2 harg2 arg3 harg3 arg4 harg4 arg5 harg5 arg6 harg6 arg7 harg7) K := by
  simp only [cc0__attention_fusion_kernel_eq_skeleton]; unfold cc0__attention_fusion_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- On core `c`: the arrays as the region finds them; after the body at tile `t` each input's buffer at its block
    and the result's at `out0_6` of the six blocks; the invariant untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic tile -/

/-- What the body is called with at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any tile: the inputs' memrefs hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ending at what the proof data says and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Frame

end
-- ==== Proof.FrameKernelIdeal.lean ====
/-
  The frame of `KernelIdeal`: @main's twelve host operations (four transposes with their narrowings, the two
  three-piece concatenations of the projection weights and biases, the two modality-first transposes) followed
  by the one pipelined region over the 32 batch tiles. At each tile the body reads the tile's four modality
  slabs of features and confidences and the whole weight and bias arrays, and stores one 256 x 1024 block of
  the result; nothing is carried between tiles. Stated here: the buffers as the region finds them, each
  window's block at a tile, what the body leaves in the result's staging buffer as a function of the blocks it
  read (`bodyVal`, the skeleton's payloads composed along the body's data flow), the body's triple, the
  pipeline's proof data, the body obligation, the run, and the frame claim.
-/
import proofs.«411035_j70385924046872_3_alg».proof.Proof.Gen.KernelIdeal.Launch
import proofs.«411035_j70385924046872_3_alg».proof.Proof.Gen.KernelIdeal.Skeleton
import proofs.«411035_j70385924046872_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the twelve host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every tile, fetched there or not: a window whose
    block index does not move (the weights and biases) still holds the block fetched at the first tile. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays end as launched: nine of them no window stages and no host operation writes; the output
    bias is the sixth window's array, an input the pipeline only reads. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 5).trans (((dats 0 c).arrAt_in 5 rfl _).trans ((hA c 5).trans (V_main_arg9 m c)))⟩) h

/-! ## The body's accesses -/

abbrev rF0 : Rect S4x256x1024 := Rect.unit (s := S4x256x1024) ![0, 0, 0] S1x256x1024.size inb_S4x256x1024_S1x256x1024_0_0_0
abbrev rF1 : Rect S4x256x1024 := Rect.unit (s := S4x256x1024) ![1, 0, 0] S1x256x1024.size inb_S4x256x1024_S1x256x1024_1_0_0
abbrev rF2 : Rect S4x256x1024 := Rect.unit (s := S4x256x1024) ![2, 0, 0] S1x256x1024.size inb_S4x256x1024_S1x256x1024_2_0_0
abbrev rF3 : Rect S4x256x1024 := Rect.unit (s := S4x256x1024) ![3, 0, 0] S1x256x1024.size inb_S4x256x1024_S1x256x1024_3_0_0
abbrev rC0 : Rect S4x256x1 := Rect.unit (s := S4x256x1) ![0, 0, 0] S1x256x1.size inb_S4x256x1_S1x256x1_0_0_0
abbrev rC1 : Rect S4x256x1 := Rect.unit (s := S4x256x1) ![1, 0, 0] S1x256x1.size inb_S4x256x1_S1x256x1_1_0_0
abbrev rC2 : Rect S4x256x1 := Rect.unit (s := S4x256x1) ![2, 0, 0] S1x256x1.size inb_S4x256x1_S1x256x1_2_0_0
abbrev rC3 : Rect S4x256x1 := Rect.unit (s := S4x256x1) ![3, 0, 0] S1x256x1.size inb_S4x256x1_S1x256x1_3_0_0
abbrev rW : Rect S1024x3072 := Rect.unit (s := S1024x3072) ![0, 0] S1024x3072.size inb_S1024x3072_S1024x3072_0_0
abbrev rB : Rect S3072 := Rect.unit (s := S3072) ![0] S3072.size inb_S3072_S3072_0
abbrev rWo : Rect S1024x1024 := Rect.unit (s := S1024x1024) ![0, 0] S1024x1024.size inb_S1024x1024_S1024x1024_0_0
abbrev rBo : Rect S1024 := Rect.unit (s := S1024) ![0] S1024.size inb_S1024_S1024_0
abbrev rO : Rect S256x1024 := Rect.unit (s := S256x1024) ![0, 0] S256x1024.size inb_S256x1024_S256x1024_0_0

/-! ## What the body stores -/

/-- The block the body stores, from the six blocks it reads: per modality the projected queries, keys and values
    (three column bands of one product with the concatenated weights), per query modality the four scaled and
    confidence-weighted scores, their stabilised exponentials and the normalised mixture of the values, the four
    mixtures summed and averaged, and the output projection. The skeleton's payloads, composed as the body passes
    them on. -/
def bodyVal (x0 : Vec F S4x256x1024 .f32) (x1 : Vec F S4x256x1 .f32) (x2 : Vec F S1024x3072 .bf16) (x3 : Vec F S3072 .f32) (x4 : Vec F S1024x1024 .bf16) (x5 : Vec F S1024 .f32) : FVec F S256x1024 .f32 :=
  let v0 := View.ld x2 rW
  let v2 := View.ld x3 rB
  let v4 := View.ld x0 rF0
  let v14 := View.ld x0 rF1
  let v24 := View.ld x0 rF2
  let v34 := View.ld x0 rF3
  let v11 := k0_pay4 v0 v2 v4
  let v12 := k0_pay5 v0 v2 v4
  let v13 := k0_pay6 v0 v2 v4
  let v21 := k0_pay8 v0 v2 v14
  let v22 := k0_pay9 v0 v2 v14
  let v23 := k0_pay10 v0 v2 v14
  let v31 := k0_pay12 v0 v2 v24
  let v32 := k0_pay13 v0 v2 v24
  let v33 := k0_pay14 v0 v2 v24
  let v37 := k0_pay15 v0 v34
  let v39 := k0_pay16 (F := F) v2
  let v44 := View.ld x1 rC0
  let v41 := k0_pay18 v37 v39
  let v42 := k0_pay19 v37 v39
  let v43 := k0_pay20 v37 v39
  let v76 := k0_pay28 v11 v12 v22 v32 v37 v39 v44
  let v78 := k0_pay29 v11 v12 v22 v32 v37 v39 v44
  let v80 := k0_pay30 v11 v12 v22 v32 v37 v39 v44
  let v85 := k0_pay31 v11 v12 v22 v32 v37 v39 v44
  let v87 := k0_pay32 v11 v12 v22 v32 v37 v39 v44
  let v101 := View.ld x1 rC1
  let v100 := k0_pay33 v13 v23 v33 v43 v76 v78 v80 v85 v87
  let v131 := k0_pay40 v12 v21 v22 v32 v42 v101
  let v133 := k0_pay41 v12 v21 v22 v32 v42 v101
  let v135 := k0_pay42 v12 v21 v22 v32 v42 v101
  let v136 := k0_pay43 v12 v21 v22 v32 v42 v101
  let v159 := View.ld x1 rC2
  let v158 := k0_pay44 v13 v23 v33 v43 v100 v131 v133 v135 v136
  let v166 := k0_pay46 v12 v31 v159
  let v172 := k0_pay47 v22 v31 v159
  let v178 := k0_pay48 v31 v32 v159
  let v184 := k0_pay49 v31 v42 v159
  let v217 := View.ld x1 rC3
  let v216 := k0_pay50 v13 v23 v33 v43 v158 v166 v172 v178 v184
  let v218 := k0_pay51 v217
  let v224 := k0_pay52 v12 v41 v217
  let v230 := k0_pay53 v22 v41 v217
  let v233 := k0_pay54 v32 v41
  let v234 := k0_pay55 (F := F)
  let v278 := View.ld x4 rWo
  let v281 := View.ld x5 rBo
  k0_pay56 v13 v23 v33 v41 v42 v43 v216 v218 v224 v230 v233 v234 v278 v281

/-- The result window's staging buffer after the body: its one store, of `bodyVal`, over the whole block. -/
def out0_6 (x0 : Vec F S4x256x1024 .f32) (x1 : Vec F S4x256x1 .f32) (x2 : Vec F S1024x3072 .bf16) (x3 : Vec F S3072 .f32) (x4 : Vec F S1024x1024 .bf16) (x5 : Vec F S1024 .f32) : Vec F S256x1024 .f32 :=
  View.canon [⟨rO, bodyVal x0 x1 x2 x3 x4 x5⟩]

/-- The one store covers the block. -/
theorem cover0_6 (p0 : Vec F S256x1024 .f32) (y : S256x1024.Idx) :
    ∃ pc ∈ ([⟨rO, p0⟩] : List (View.Piece (Elt F) S256x1024 .f32)), y ∈ pc.1.set :=
  View.cover_of_tiled [⟨rO, p0⟩] S256x1024.size (by rfl) y

/-! ## The body's triple -/

set_option maxHeartbeats 4000000 in
/-- The body on whole staging memrefs, the six inputs' at read contents `x0 … x5` and the result's at anything, runs
    to the continuation with the inputs' as they were and the result's at `out0_6` of them. -/
theorem sound_kernel (c : Dev nD) (E : Set ℕ) (i : grid0.Coords) (arg1 : Memref sig .tc .vmem S4x256x1024 .f32) (harg1 : arg1.IsWhole) (arg2 : Memref sig .tc .vmem S4x256x1 .f32) (harg2 : arg2.IsWhole) (arg3 : Memref sig .tc .vmem S1024x3072 .bf16) (harg3 : arg3.IsWhole) (arg4 : Memref sig .tc .vmem S3072 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S256x1024 .f32) (harg7 : arg7.IsWhole)
    (x0 : Vec F S4x256x1024 .f32) (x1 : Vec F S4x256x1 .f32) (x2 : Vec F S1024x3072 .bf16) (x3 : Vec F S3072 .f32) (x4 : Vec F S1024x1024 .bf16) (x5 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__attention_fusion_kernel i arg1 harg1 arg2 harg2 arg3 harg3 arg4 harg4 arg5 harg5 arg6 harg6 arg7 harg7) K := by
  simp only [cc0__attention_fusion_kernel_eq_skeleton]; unfold cc0__attention_fusion_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- On core `c`: the arrays as the region finds them; after the body at tile `t` each input's buffer at its block
    and the result's at `out0_6` of the six blocks; the invariant untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic tile -/

/-- What the body is called with at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any tile: the inputs' memrefs hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ending at what the proof data says and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Frame

end
-- ==== Proof.KernelTail.lean ====
/-
  The body after the projections: from the twelve projected arrays (queries, keys and values of the four
  modalities; the fourth modality's still as its product and bias, whose three bands the later statements cut
  again), the four confidence slabs and the output projection's weight and bias, to the stored block.
-/
import proofs.«411035_j70385924046872_3_alg».proof.Proof.FrameKernelIdeal

noncomputable section

namespace Cert.KernelIdeal.Tail

open Cert.KernelIdeal Cert.KernelIdeal.Gen Cert.KernelIdeal.Frame
open Idealize.ShloMosaic Idealize.ShloMosaic.TcCoe

variable {F : FTy → Type} [FloatOps F]

/-- The stored block from the projected arrays: the skeleton's payloads of the scores, the softmax weights, the
    mixtures, their mean and the output projection, composed as the body passes them on. -/
def bodyTail (v11 v12 v13 v21 v22 v23 v31 v32 v33 : FVec F S256x1024 .f32) (v37 v39 : FVec F S256x3072 .f32)
    (v44 v101 v159 v217 : Vec F S1x256x1 .f32) (v278 : Vec F S1024x1024 .bf16) (v281 : Vec F S1024 .f32) : FVec F S256x1024 .f32 :=
  let v41 := k0_pay18 v37 v39
  let v42 := k0_pay19 v37 v39
  let v43 := k0_pay20 v37 v39
  let v76 := k0_pay28 v11 v12 v22 v32 v37 v39 v44
  let v78 := k0_pay29 v11 v12 v22 v32 v37 v39 v44
  let v80 := k0_pay30 v11 v12 v22 v32 v37 v39 v44
  let v85 := k0_pay31 v11 v12 v22 v32 v37 v39 v44
  let v87 := k0_pay32 v11 v12 v22 v32 v37 v39 v44
  let v100 := k0_pay33 v13 v23 v33 v43 v76 v78 v80 v85 v87
  let v131 := k0_pay40 v12 v21 v22 v32 v42 v101
  let v133 := k0_pay41 v12 v21 v22 v32 v42 v101
  let v135 := k0_pay42 v12 v21 v22 v32 v42 v101
  let v136 := k0_pay43 v12 v21 v22 v32 v42 v101
  let v158 := k0_pay44 v13 v23 v33 v43 v100 v131 v133 v135 v136
  let v166 := k0_pay46 v12 v31 v159
  let v172 := k0_pay47 v22 v31 v159
  let v178 := k0_pay48 v31 v32 v159
  let v184 := k0_pay49 v31 v42 v159
  let v216 := k0_pay50 v13 v23 v33 v43 v158 v166 v172 v178 v184
  let v218 := k0_pay51 v217
  let v224 := k0_pay52 v12 v41 v217
  let v230 := k0_pay53 v22 v41 v217
  let v233 := k0_pay54 v32 v41
  let v234 := k0_pay55 (F := F)
  k0_pay56 v13 v23 v33 v41 v42 v43 v216 v218 v224 v230 v233 v234 v278 v281

/-- The stored block is the tail of the body at the projections of the blocks read. -/
theorem bodyVal_eq_tail (x0 : Vec F S4x256x1024 .f32) (x1 : Vec F S4x256x1 .f32) (x2 : Vec F S1024x3072 .bf16)
    (x3 : Vec F S3072 .f32) (x4 : Vec F S1024x1024 .bf16) (x5 : Vec F S1024 .f32) :
    bodyVal x0 x1 x2 x3 x4 x5
      = bodyTail (k0_pay4 (View.ld x2 rW) (View.ld x3 rB) (View.ld x0 rF0)) (k0_pay5 (View.ld x2 rW) (View.ld x3 rB) (View.ld x0 rF0))
          (k0_pay6 (View.ld x2 rW) (View.ld x3 rB) (View.ld x0 rF0))
          (k0_pay8 (View.ld x2 rW) (View.ld x3 rB) (View.ld x0 rF1)) (k0_pay9 (View.ld x2 rW) (View.ld x3 rB) (View.ld x0 rF1))
          (k0_pay10 (View.ld x2 rW) (View.ld x3 rB) (View.ld x0 rF1))
          (k0_pay12 (View.ld x2 rW) (View.ld x3 rB) (View.ld x0 rF2)) (k0_pay13 (View.ld x2 rW) (View.ld x3 rB) (View.ld x0 rF2))
          (k0_pay14 (View.ld x2 rW) (View.ld x3 rB) (View.ld x0 rF2))
          (k0_pay15 (View.ld x2 rW) (View.ld x0 rF3)) (k0_pay16 (F := F) (View.ld x3 rB))
          (View.ld x1 rC0) (View.ld x1 rC1) (View.ld x1 rC2) (View.ld x1 rC3) (View.ld x4 rWo) (View.ld x5 rBo) := rfl

end Cert.KernelIdeal.Tail

end
-- ==== Proof.AttnRow.lean ====
/-
  One batch row of confidence-weighted attention fusion, on the extended reals.

  A row carries four modality vectors of length 1024 and four confidences. Each modality is projected to a
  query, a key and a value (a product with a weight matrix plus a bias). For a query modality m the score
  against key modality n is the dot product of query m and key n, scaled by 1/32 and by the confidence of m;
  the four scores are stabilised by their maximum, exponentiated and normalised; the normalised weights mix
  the four values; the four mixtures are averaged; the average is projected once more.

  Two spellings of a normalised weight occur: the exponential times the reciprocal of the sum (`wtK`), and the
  exponential divided by the sum (`wtR`). On the extended reals they differ only where the sum vanishes, which
  needs an infinite score; on a row of real numbers the sum of four positive reals is a positive real and the
  two agree (`outRowK_eq_outRowR`).
-/
import Idealize.ShloMosaic.PureOps.Ideal
import Idealize.ShloMosaic.PureOps.Ideal.Laws
import Idealize.ShloMosaic.Lib.ValueIdx

noncomputable section

namespace Cert.AttnRow

open Idealize.ShloMosaic

/-! ## The literals the two programs spell -/

theorem ofBits_zero : Ideal.ofBits .f32 0x00000000#32 = 0 := by
  simp [Ideal.ofBits, Ideal.ieee]
theorem ofBits_one : Ideal.ofBits .f32 0x3F800000#32 = 1 := by
  simp [Ideal.ofBits, Ideal.ieee, -EReal.coe_mul]; norm_num
theorem ofBits_thirtysecond : Ideal.ofBits .f32 0x3D000000#32 = ((1 / 32 : ℝ) : EReal) := by
  simp [Ideal.ofBits, Ideal.ieee, -EReal.coe_mul]; norm_num
theorem ofBits_quarter : Ideal.ofBits .f32 0x3E800000#32 = ((1 / 4 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_neg_inf : Ideal.ofBits .f32 0xFF800000#32 = ⊥ := by
  simp [Ideal.ofBits, Ideal.ieee]

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

/-! ## A row and the weights -/

/-- One batch row: `feat m h` is modality `m`'s feature `h`, `conf m` its confidence. -/
structure Row where
  feat : Fin 4 → Fin 1024 → EReal
  conf : Fin 4 → EReal

/-- The projection weights, `w o h` the weight of input feature `h` in output feature `o`, and their biases. -/
structure Wts where
  wq : Fin 1024 → Fin 1024 → EReal
  bq : Fin 1024 → EReal
  wk : Fin 1024 → Fin 1024 → EReal
  bk : Fin 1024 → EReal
  wv : Fin 1024 → Fin 1024 → EReal
  bv : Fin 1024 → EReal
  wo : Fin 1024 → Fin 1024 → EReal
  bo : Fin 1024 → EReal

/-- The projected row: queries, keys and values per modality, the confidences, and the output projection. -/
structure QKV where
  q : Fin 4 → Fin 1024 → EReal
  k : Fin 4 → Fin 1024 → EReal
  v : Fin 4 → Fin 1024 → EReal
  conf : Fin 4 → EReal
  wo : Fin 1024 → Fin 1024 → EReal
  bo : Fin 1024 → EReal

namespace QKV

variable (P : QKV)

/-- Query `m` against key `n`. -/
def qk (m n : Fin 4) : EReal := ∑ o : Fin 1024, P.q m o * P.k n o

/-- The score: scaled by 1/32 (the inverse square root of the width 1024) and by the query modality's confidence. -/
def score (m n : Fin 4) : EReal := P.qk m n * ((1 / 32 : ℝ) : EReal) * P.conf m

/-- The largest of the four scores of query `m`. -/
def smax (m : Fin 4) : EReal := max (max (max (P.score m 0) (P.score m 1)) (P.score m 2)) (P.score m 3)

/-- The stabilised exponential. -/
def ex (m n : Fin 4) : EReal := Ideal.exp (P.score m n - P.smax m)

/-- The normaliser. -/
def den (m : Fin 4) : EReal := ∑ n : Fin 4, P.ex m n

/-- The weight as exponential times reciprocal of the normaliser, -/
def wtK (m n : Fin 4) : EReal := P.ex m n * Ideal.div 1 (P.den m)

/-- and as exponential divided by the normaliser. -/
def wtR (m n : Fin 4) : EReal := Ideal.div (P.ex m n) (P.den m)

/-- The values mixed by weights `wt`. -/
def att (wt : Fin 4 → Fin 4 → EReal) (m : Fin 4) (o : Fin 1024) : EReal := ∑ n : Fin 4, wt m n * P.v n o

/-- The mean of the four mixtures. -/
def fused (wt : Fin 4 → Fin 4 → EReal) (o : Fin 1024) : EReal := (∑ m : Fin 4, P.att wt m o) * ((1 / 4 : ℝ) : EReal)

/-- The output projection. -/
def out (wt : Fin 4 → Fin 4 → EReal) (j : Fin 1024) : EReal := (∑ o : Fin 1024, P.fused wt o * P.wo j o) + P.bo j

def outK (j : Fin 1024) : EReal := P.out P.wtK j
def outR (j : Fin 1024) : EReal := P.out P.wtR j

end QKV

variable (R : Row) (W : Wts)

/-- Modality `m` projected by `w`, `bias`, at output feature `o`. -/
def proj (w : Fin 1024 → Fin 1024 → EReal) (bias : Fin 1024 → EReal) (m : Fin 4) (o : Fin 1024) : EReal :=
  (∑ h : Fin 1024, R.feat m h * w o h) + bias o

/-- A row projected by the weights. -/
def qkv : QKV := ⟨proj R W.wq W.bq, proj R W.wk W.bk, proj R W.wv W.bv, R.conf, W.wo, W.bo⟩

def outRowK (j : Fin 1024) : EReal := (qkv R W).outK j
def outRowR (j : Fin 1024) : EReal := (qkv R W).outR j

/-! ## Rows and weights from blocks and from whole arrays -/

/-- Row `r` of a tile: the tile's feature slab `x0` (modality, row, feature) and confidence slab `x1`. -/
def rowOfBlocks (x0 : (⟨3, ![4, 256, 1024]⟩ : Shape).Idx → EReal) (x1 : (⟨3, ![4, 256, 1]⟩ : Shape).Idx → EReal)
    (r : Fin 256) : Row :=
  ⟨fun m h => x0 (ValueIdx.ix3 m r h), fun m => x1 (ValueIdx.ix3 m r 0)⟩

/-- The weights as the body reads them: the concatenated, transposed projection matrix `x2` (input feature, then
    the three output bands), the concatenated bias `x3`, the transposed output matrix `x4` and its bias `x5`. -/
def wtsOfBlocks (x2 : (⟨2, ![1024, 3072]⟩ : Shape).Idx → EReal) (x3 : (⟨1, ![3072]⟩ : Shape).Idx → EReal)
    (x4 : (⟨2, ![1024, 1024]⟩ : Shape).Idx → EReal) (x5 : (⟨1, ![1024]⟩ : Shape).Idx → EReal) : Wts where
  wq o h := x2 (ValueIdx.ix2 h (⟨o.val, by omega⟩ : Fin 3072))
  bq o := x3 (ValueIdx.ix1 (⟨o.val, by omega⟩ : Fin 3072))
  wk o h := x2 (ValueIdx.ix2 h (⟨1024 + o.val, by omega⟩ : Fin 3072))
  bk o := x3 (ValueIdx.ix1 (⟨1024 + o.val, by omega⟩ : Fin 3072))
  wv o h := x2 (ValueIdx.ix2 h (⟨2048 + o.val, by omega⟩ : Fin 3072))
  bv o := x3 (ValueIdx.ix1 (⟨2048 + o.val, by omega⟩ : Fin 3072))
  wo j o := x4 (ValueIdx.ix2 o j)
  bo j := x5 (ValueIdx.ix1 j)

/-- Batch row `b` of the argument arrays (batch, modality, feature). -/
def rowOfArgs (X : (⟨3, ![8192, 4, 1024]⟩ : Shape).Idx → EReal) (C : (⟨3, ![8192, 4, 1]⟩ : Shape).Idx → EReal)
    (b : Fin 8192) : Row :=
  ⟨fun m h => X (ValueIdx.ix3 b m h), fun m => C (ValueIdx.ix3 b m 0)⟩

/-- The argument weights, each (output feature, input feature). -/
def wtsOfArgs (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal) : Wts where
  wq o h := Wq (ValueIdx.ix2 o h)
  bq o := bq (ValueIdx.ix1 o)
  wk o h := Wk (ValueIdx.ix2 o h)
  bk o := bk (ValueIdx.ix1 o)
  wv o h := Wv (ValueIdx.ix2 o h)
  bv o := bv (ValueIdx.ix1 o)
  wo j o := Wo (ValueIdx.ix2 j o)
  bo j := bo (ValueIdx.ix1 j)

/-- The whole result (batch, output feature) in the reciprocal spelling, -/
def GK (X : (⟨3, ![8192, 4, 1024]⟩ : Shape).Idx → EReal) (C : (⟨3, ![8192, 4, 1]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal) :
    (⟨2, ![8192, 1024]⟩ : Shape).Idx → EReal :=
  fun i => outRowK (rowOfArgs X C (i 0)) (wtsOfArgs Wq bq Wk bk Wv bv Wo bo) (i 1)

/-- and in the quotient spelling. -/
def GR (X : (⟨3, ![8192, 4, 1024]⟩ : Shape).Idx → EReal) (C : (⟨3, ![8192, 4, 1]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal) :
    (⟨2, ![8192, 1024]⟩ : Shape).Idx → EReal :=
  fun i => outRowR (rowOfArgs X C (i 0)) (wtsOfArgs Wq bq Wk bk Wv bv Wo bo) (i 1)

/-! ## On a row of real numbers the two spellings agree -/

/-- A row and the query and key weights hold real numbers only. -/
structure Finite (R : Row) (W : Wts) : Prop where
  feat : ∀ m h, ∃ r : ℝ, R.feat m h = (r : EReal)
  conf : ∀ m, ∃ r : ℝ, R.conf m = (r : EReal)
  wq : ∀ o h, ∃ r : ℝ, W.wq o h = (r : EReal)
  bq : ∀ o, ∃ r : ℝ, W.bq o = (r : EReal)
  wk : ∀ o h, ∃ r : ℝ, W.wk o h = (r : EReal)
  bk : ∀ o, ∃ r : ℝ, W.bk o = (r : EReal)

/-- A finite sum of reals is a real. -/
theorem exists_coe_sum {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

/-- A finite sum, a sum, a product of reals is a real. -/
theorem exists_coe_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩
theorem exists_coe_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- The coercion of the reals is monotone, so it carries a maximum to the maximum. -/
private theorem coe_max (a b : ℝ) : ((max a b : ℝ) : EReal) = max (a : EReal) (b : EReal) :=
  EReal.coe_strictMono.monotone.map_max

namespace QKV

variable {P : QKV}

/-- Real queries, keys and confidences give real scores. -/
theorem score_real (hq : ∀ m o, ∃ r : ℝ, P.q m o = (r : EReal)) (hk : ∀ m o, ∃ r : ℝ, P.k m o = (r : EReal))
    (hc : ∀ m, ∃ r : ℝ, P.conf m = (r : EReal)) (m n : Fin 4) : ∃ r : ℝ, P.score m n = (r : EReal) := by
  unfold score qk
  exact exists_coe_mul
    (exists_coe_mul (exists_coe_sum _ _ fun o _ => exists_coe_mul (hq m o) (hk n o)) ⟨1 / 32, rfl⟩) (hc m)

/-- So the normaliser, a sum of four positive reals, does not vanish. -/
theorem den_ne_zero (hs : ∀ m n, ∃ r : ℝ, P.score m n = (r : EReal)) (m : Fin 4) : P.den m ≠ 0 := by
  choose s hs using hs
  -- the largest score is the largest of the four real numbers
  have hmax : P.smax m = ((max (max (max (s m 0) (s m 1)) (s m 2)) (s m 3) : ℝ) : EReal) := by
    unfold smax
    rw [hs m 0, hs m 1, hs m 2, hs m 3, coe_max, coe_max, coe_max]
  -- each stabilised exponential is the real exponential of a real difference
  have hex : ∀ n, P.ex m n
      = ((Real.exp (s m n - max (max (max (s m 0) (s m 1)) (s m 2)) (s m 3)) : ℝ) : EReal) := by
    intro n
    unfold ex
    rw [hmax, hs m n, ← EReal.coe_sub, Ideal.exp_coe]
  -- so the normaliser is the sum of four positive reals
  unfold den
  rw [Fin.sum_univ_four, hex 0, hex 1, hex 2, hex 3, ← EReal.coe_add, ← EReal.coe_add, ← EReal.coe_add]
  exact EReal.coe_ne_zero.mpr
    (add_pos (add_pos (add_pos (Real.exp_pos _) (Real.exp_pos _)) (Real.exp_pos _)) (Real.exp_pos _)).ne'

/-- Off a vanishing normaliser the two spellings of a weight are one number. -/
theorem wtK_eq_wtR (hd : ∀ m, P.den m ≠ 0) : P.wtK = P.wtR := by
  funext m n
  unfold wtK wtR Ideal.div
  rw [if_neg (hd m), if_neg (hd m), one_mul]

theorem outK_eq_outR (hq : ∀ m o, ∃ r : ℝ, P.q m o = (r : EReal)) (hk : ∀ m o, ∃ r : ℝ, P.k m o = (r : EReal))
    (hc : ∀ m, ∃ r : ℝ, P.conf m = (r : EReal)) (j : Fin 1024) : P.outK j = P.outR j := by
  unfold outK outR
  rw [wtK_eq_wtR (den_ne_zero (score_real hq hk hc))]

end QKV

variable {R W}

/-- On a finite row the projected queries and keys are real. -/
theorem proj_real {w : Fin 1024 → Fin 1024 → EReal} {bias : Fin 1024 → EReal}
    (hf : ∀ m h, ∃ r : ℝ, R.feat m h = (r : EReal)) (hw : ∀ o h, ∃ r : ℝ, w o h = (r : EReal))
    (hb : ∀ o, ∃ r : ℝ, bias o = (r : EReal)) (m : Fin 4) (o : Fin 1024) : ∃ r : ℝ, proj R w bias m o = (r : EReal) :=
  exists_coe_add (exists_coe_sum _ _ fun h _ => exists_coe_mul (hf m h) (hw o h)) (hb o)

/-- The two spellings of the row's result agree on a finite row. -/
theorem outRowK_eq_outRowR (h : Finite R W) (j : Fin 1024) : outRowK R W j = outRowR R W j :=
  QKV.outK_eq_outR (P := qkv R W) (proj_real h.feat h.wq h.bq) (proj_real h.feat h.wk h.bk) h.conf j

end Cert.AttnRow

end
-- ==== Proof.KernelProj.lean ====
/-
  The projections the body computes, read at a row `r` of the tile and an output feature `o`: the product of
  the row's modality vector with the band of the concatenated weight matrix that belongs to the query, the key
  or the value, plus that band of the concatenated bias. (The narrowing of the features to the 16-bit format
  before the product is the identity on the extended reals; the product into the zero accumulator is the plain
  sum over the 1024 input features.)
-/
import proofs.«411035_j70385924046872_3_alg».proof.Proof.FrameKernelIdeal
import proofs.«411035_j70385924046872_3_alg».proof.Proof.AttnRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ProjValue

open Cert.KernelIdeal Cert.KernelIdeal.Gen Cert.KernelIdeal.Frame
open Idealize.ShloMosaic Idealize.ShloMosaic.TcCoe Cert.AttnRow

/-! ## The product's operand indices, axis by axis -/

private theorem lhs_dot_0 (i : S256x3072.Idx) (q : Cert.KernelIdeal.dot_S256x1024_S1024x3072_S256x3072_1_0_0_1_n_n.contr.Idx) :
    (Cert.KernelIdeal.dot_S256x1024_S1024x3072_S256x3072_1_0_0_1_n_n.lhsIdx i q 0).val = (i 0).val := by
  unfold DotDims.lhsIdx
  rw [dif_neg (show ¬(0 : Fin S256x1024.rank) ∈ Cert.KernelIdeal.dot_S256x1024_S1024x3072_S256x3072_1_0_0_1_n_n.lhsBatch by decide), dif_pos (show (0 : Fin S256x1024.rank) ∈ Cert.KernelIdeal.dot_S256x1024_S1024x3072_S256x3072_1_0_0_1_n_n.lhsNonContracting by decide)]
  rfl
private theorem lhs_dot_1 (i : S256x3072.Idx) (q : Cert.KernelIdeal.dot_S256x1024_S1024x3072_S256x3072_1_0_0_1_n_n.contr.Idx) :
    (Cert.KernelIdeal.dot_S256x1024_S1024x3072_S256x3072_1_0_0_1_n_n.lhsIdx i q 1).val = (q ⟨0, by decide⟩).val :=
  Cert.KernelIdeal.dot_S256x1024_S1024x3072_S256x3072_1_0_0_1_n_n.lhsIdx_val_of_single rfl i q
private theorem rhs_dot_0 (i : S256x3072.Idx) (q : Cert.KernelIdeal.dot_S256x1024_S1024x3072_S256x3072_1_0_0_1_n_n.contr.Idx) :
    (Cert.KernelIdeal.dot_S256x1024_S1024x3072_S256x3072_1_0_0_1_n_n.rhsIdx i q 0).val = (q ⟨0, by decide⟩).val :=
  Cert.KernelIdeal.dot_S256x1024_S1024x3072_S256x3072_1_0_0_1_n_n.rhsIdx_val_of_single rfl i q
private theorem rhs_dot_1 (i : S256x3072.Idx) (q : Cert.KernelIdeal.dot_S256x1024_S1024x3072_S256x3072_1_0_0_1_n_n.contr.Idx) :
    (Cert.KernelIdeal.dot_S256x1024_S1024x3072_S256x3072_1_0_0_1_n_n.rhsIdx i q 1).val = (i 1).val := by
  unfold DotDims.rhsIdx
  rw [dif_neg (show ¬(1 : Fin S1024x3072.rank) ∈ Cert.KernelIdeal.dot_S256x1024_S1024x3072_S256x3072_1_0_0_1_n_n.rhsBatch by decide), dif_pos (show (1 : Fin S1024x3072.rank) ∈ Cert.KernelIdeal.dot_S256x1024_S1024x3072_S256x3072_1_0_0_1_n_n.rhsNonContracting by decide)]
  rfl

/-- The product into the zero accumulator at (row, column): the sum over the 1024 contracted features. -/
private theorem matmul_at (f : FVec Ideal S256x1024 .bf16) (w : FVec Ideal S1024x3072 .bf16) (r : Fin 256) (c : Fin 3072) :
    matmul Cert.KernelIdeal.dot_S256x1024_S1024x3072_S256x3072_1_0_0_1_n_n none f w (constant (F := Ideal) S256x3072 .f32 0x00000000#32) (ValueIdx.ix2 r c)
      = ∑ h : Fin 1024, f (ValueIdx.ix2 r h) * w (ValueIdx.ix2 h c) := by
  show FloatOps.matmul _ _ _ _ _ _ = _
  rw [Ideal.matmul_constant_zero_apply, ← Equiv.sum_comp (ValueIdx.contrEquiv1 Cert.KernelIdeal.dot_S256x1024_S1024x3072_S256x3072_1_0_0_1_n_n 1024 rfl rfl).symm]
  refine Finset.sum_congr rfl fun k _ => ?_
  have hk := ValueIdx.contrEquiv1_symm_val Cert.KernelIdeal.dot_S256x1024_S1024x3072_S256x3072_1_0_0_1_n_n 1024 rfl rfl k
  have el : Cert.KernelIdeal.dot_S256x1024_S1024x3072_S256x3072_1_0_0_1_n_n.lhsIdx (ValueIdx.ix2 r c) ((ValueIdx.contrEquiv1 Cert.KernelIdeal.dot_S256x1024_S1024x3072_S256x3072_1_0_0_1_n_n 1024 rfl rfl).symm k) = ValueIdx.ix2 r k := funext fun a => Fin.ext (by
    match a with
    | ⟨0, _⟩ => exact lhs_dot_0 _ _
    | ⟨1, _⟩ => exact (lhs_dot_1 _ _).trans hk)
  have er : Cert.KernelIdeal.dot_S256x1024_S1024x3072_S256x3072_1_0_0_1_n_n.rhsIdx (ValueIdx.ix2 r c) ((ValueIdx.contrEquiv1 Cert.KernelIdeal.dot_S256x1024_S1024x3072_S256x3072_1_0_0_1_n_n 1024 rfl rfl).symm k) = ValueIdx.ix2 k c := funext fun a => Fin.ext (by
    match a with
    | ⟨0, _⟩ => exact (rhs_dot_0 _ _).trans hk
    | ⟨1, _⟩ => exact rhs_dot_1 _ _)
  rw [el, er]

/-! ## The whole-array and the one-modality loads -/

private theorem off2 : (![0, 0] : Fin 2 → ℕ) = fun _ => 0 := funext fun a => by
  match a with
  | ⟨0, _⟩ => rfl
  | ⟨1, _⟩ => rfl
private theorem off1 : (![0] : Fin 1 → ℕ) = fun _ => 0 := funext fun a => by
  match a with
  | ⟨0, _⟩ => rfl

/-- The weight load reads the whole weight block. -/
private theorem ld_rW (x2 : Vec Ideal S1024x3072 .bf16) : View.ld x2 rW = x2 := View.ld_unit_zero off2 _ x2
/-- The bias load reads the whole bias block. -/
private theorem ld_rB (x3 : Vec Ideal S3072 .f32) : View.ld x3 rB = x3 := View.ld_unit_zero off1 _ x3

/-- The feature load at modality offset `k` reads modality `k`'s slab: its (0, r, h) is the block's (k, r, h). -/
private theorem ld_rF (x0 : Vec Ideal S4x256x1024 .f32) (m : Fin 4) (k : ℕ) (hk : k = m.val)
    (inb : ∀ a, (![k, 0, 0] : Fin 3 → Nat) a + S1x256x1024.size a ≤ S4x256x1024.size a) (r : Fin 256) (h : Fin 1024) :
    View.ld x0 (Rect.unit (s := S4x256x1024) ![k, 0, 0] S1x256x1024.size inb) (ValueIdx.ix3 (0 : Fin 1) r h) = x0 (ValueIdx.ix3 m r h) := by
  subst hk
  show x0 _ = x0 _
  congr 1
  funext a
  match a with
  | ⟨0, _⟩ => exact Fin.ext (by show m.val + 1 * 0 = m.val; omega)
  | ⟨1, _⟩ => exact Fin.ext (by show 0 + 1 * r.val = r.val; omega)
  | ⟨2, _⟩ => exact Fin.ext (by show 0 + 1 * h.val = h.val; omega)

/-! ## The projected array before the bands are cut -/

/-- Product plus broadcast bias at (row, column), over any operands of the body's shapes. -/
private theorem body_at (w : FVec Ideal S1024x3072 .bf16) (bias : FVec Ideal S3072 .f32) (f : FVec Ideal S256x1024 .f32)
    (r : Fin 256) (c : Fin 3072) :
    addf (matmul Cert.KernelIdeal.dot_S256x1024_S1024x3072_S256x3072_1_0_0_1_n_n none (truncf .bf16 f bitsLt_bf16_f32) w (constant (F := Ideal) S256x3072 .f32 0x00000000#32))
        (broadcastTo S256x3072 (shapeCast S1x3072 bias shapeCasts_S3072_S1x3072) broadcasts_S1x3072_S256x3072) (ValueIdx.ix2 r c)
      = (∑ h : Fin 1024, f (ValueIdx.ix2 r h) * w (ValueIdx.ix2 h c)) + bias (ValueIdx.ix1 c) := by
  rw [ValueIdx.addf_apply, matmul_at, ValueIdx.broadcastTo_1b_ab_apply, ValueIdx.shapeCast_a_1a_apply]
  rfl

/-- The body's projected array for the modality loaded at offset `k`, at (row, column). -/
private theorem pay3_at (x0 : Vec Ideal S4x256x1024 .f32) (x2 : Vec Ideal S1024x3072 .bf16) (x3 : Vec Ideal S3072 .f32)
    (m : Fin 4) (k : ℕ) (hk : k = m.val)
    (inb : ∀ a, (![k, 0, 0] : Fin 3 → Nat) a + S1x256x1024.size a ≤ S4x256x1024.size a) (r : Fin 256) (c : Fin 3072) :
    k0_pay3 (F := Ideal) (View.ld x2 rW) (View.ld x3 rB) (View.ld x0 (Rect.unit (s := S4x256x1024) ![k, 0, 0] S1x256x1024.size inb)) (ValueIdx.ix2 r c)
      = (∑ h : Fin 1024, x0 (ValueIdx.ix3 m r h) * x2 (ValueIdx.ix2 h c)) + x3 (ValueIdx.ix1 c) := by
  unfold k0_pay3 k0_pay1 k0_pay2
  rw [shapeCast_self, shapeCast_self, ld_rW, ld_rB, body_at]
  refine congrArg (· + x3 (ValueIdx.ix1 c)) (Finset.sum_congr rfl fun h _ => ?_)
  rw [ValueIdx.shapeCast_1ab_ab_apply, ld_rF x0 m k hk inb r h]

/-- A band of the projected array: the slice at column offset `off` read at (r, o) is the array at column `off + o`. -/
private theorem band_at (x0 : Vec Ideal S4x256x1024 .f32) (x2 : Vec Ideal S1024x3072 .bf16) (x3 : Vec Ideal S3072 .f32)
    (m : Fin 4) (k : ℕ) (hk : k = m.val)
    (inb : ∀ a, (![k, 0, 0] : Fin 3 → Nat) a + S1x256x1024.size a ≤ S4x256x1024.size a)
    (off : ℕ) (hs : S256x3072.Slices ![0, off] S256x1024) (r : Fin 256) (o : Fin 1024) (c : Fin 3072) (hc : c.val = off + o.val) :
    extractStridedSlice S256x1024 ![0, off]
        (k0_pay3 (F := Ideal) (View.ld x2 rW) (View.ld x3 rB) (View.ld x0 (Rect.unit (s := S4x256x1024) ![k, 0, 0] S1x256x1024.size inb)))
        hs (ValueIdx.ix2 r o)
      = (∑ h : Fin 1024, x0 (ValueIdx.ix3 m r h) * x2 (ValueIdx.ix2 h c)) + x3 (ValueIdx.ix1 c) := by
  rw [ValueIdx.slice2_axis1_apply off _ hs r o c hc, pay3_at x0 x2 x3 m k hk inb r c]

/-! ## The twelve projections -/

theorem q0_apply (x0 : Vec Ideal S4x256x1024 .f32) (x1 : Vec Ideal S4x256x1 .f32) (x2 : Vec Ideal S1024x3072 .bf16)
    (x3 : Vec Ideal S3072 .f32) (x4 : Vec Ideal S1024x1024 .bf16) (x5 : Vec Ideal S1024 .f32) (r : Fin 256) (o : Fin 1024) :
    k0_pay4 (F := Ideal) (View.ld x2 rW) (View.ld x3 rB) (View.ld x0 rF0) (ValueIdx.ix2 r o)
      = (qkv (rowOfBlocks x0 x1 r) (wtsOfBlocks x2 x3 x4 x5)).q 0 o :=
  band_at x0 x2 x3 0 0 rfl inb_S4x256x1024_S1x256x1024_0_0_0 0 slices_S256x3072_o0_0_S256x1024 r o ⟨o.val, by omega⟩ (by show o.val = 0 + o.val; omega)

theorem k0_apply (x0 : Vec Ideal S4x256x1024 .f32) (x1 : Vec Ideal S4x256x1 .f32) (x2 : Vec Ideal S1024x3072 .bf16)
    (x3 : Vec Ideal S3072 .f32) (x4 : Vec Ideal S1024x1024 .bf16) (x5 : Vec Ideal S1024 .f32) (r : Fin 256) (o : Fin 1024) :
    k0_pay5 (F := Ideal) (View.ld x2 rW) (View.ld x3 rB) (View.ld x0 rF0) (ValueIdx.ix2 r o)
      = (qkv (rowOfBlocks x0 x1 r) (wtsOfBlocks x2 x3 x4 x5)).k 0 o :=
  band_at x0 x2 x3 0 0 rfl inb_S4x256x1024_S1x256x1024_0_0_0 1024 slices_S256x3072_o0_1024_S256x1024 r o ⟨1024 + o.val, by omega⟩ rfl

theorem v0_apply (x0 : Vec Ideal S4x256x1024 .f32) (x1 : Vec Ideal S4x256x1 .f32) (x2 : Vec Ideal S1024x3072 .bf16)
    (x3 : Vec Ideal S3072 .f32) (x4 : Vec Ideal S1024x1024 .bf16) (x5 : Vec Ideal S1024 .f32) (r : Fin 256) (o : Fin 1024) :
    k0_pay6 (F := Ideal) (View.ld x2 rW) (View.ld x3 rB) (View.ld x0 rF0) (ValueIdx.ix2 r o)
      = (qkv (rowOfBlocks x0 x1 r) (wtsOfBlocks x2 x3 x4 x5)).v 0 o :=
  band_at x0 x2 x3 0 0 rfl inb_S4x256x1024_S1x256x1024_0_0_0 2048 slices_S256x3072_o0_2048_S256x1024 r o ⟨2048 + o.val, by omega⟩ rfl

theorem q1_apply (x0 : Vec Ideal S4x256x1024 .f32) (x1 : Vec Ideal S4x256x1 .f32) (x2 : Vec Ideal S1024x3072 .bf16)
    (x3 : Vec Ideal S3072 .f32) (x4 : Vec Ideal S1024x1024 .bf16) (x5 : Vec Ideal S1024 .f32) (r : Fin 256) (o : Fin 1024) :
    k0_pay8 (F := Ideal) (View.ld x2 rW) (View.ld x3 rB) (View.ld x0 rF1) (ValueIdx.ix2 r o)
      = (qkv (rowOfBlocks x0 x1 r) (wtsOfBlocks x2 x3 x4 x5)).q 1 o :=
  band_at x0 x2 x3 1 1 rfl inb_S4x256x1024_S1x256x1024_1_0_0 0 slices_S256x3072_o0_0_S256x1024 r o ⟨o.val, by omega⟩ (by show o.val = 0 + o.val; omega)

theorem k1_apply (x0 : Vec Ideal S4x256x1024 .f32) (x1 : Vec Ideal S4x256x1 .f32) (x2 : Vec Ideal S1024x3072 .bf16)
    (x3 : Vec Ideal S3072 .f32) (x4 : Vec Ideal S1024x1024 .bf16) (x5 : Vec Ideal S1024 .f32) (r : Fin 256) (o : Fin 1024) :
    k0_pay9 (F := Ideal) (View.ld x2 rW) (View.ld x3 rB) (View.ld x0 rF1) (ValueIdx.ix2 r o)
      = (qkv (rowOfBlocks x0 x1 r) (wtsOfBlocks x2 x3 x4 x5)).k 1 o :=
  band_at x0 x2 x3 1 1 rfl inb_S4x256x1024_S1x256x1024_1_0_0 1024 slices_S256x3072_o0_1024_S256x1024 r o ⟨1024 + o.val, by omega⟩ rfl

theorem v1_apply (x0 : Vec Ideal S4x256x1024 .f32) (x1 : Vec Ideal S4x256x1 .f32) (x2 : Vec Ideal S1024x3072 .bf16)
    (x3 : Vec Ideal S3072 .f32) (x4 : Vec Ideal S1024x1024 .bf16) (x5 : Vec Ideal S1024 .f32) (r : Fin 256) (o : Fin 1024) :
    k0_pay10 (F := Ideal) (View.ld x2 rW) (View.ld x3 rB) (View.ld x0 rF1) (ValueIdx.ix2 r o)
      = (qkv (rowOfBlocks x0 x1 r) (wtsOfBlocks x2 x3 x4 x5)).v 1 o :=
  band_at x0 x2 x3 1 1 rfl inb_S4x256x1024_S1x256x1024_1_0_0 2048 slices_S256x3072_o0_2048_S256x1024 r o ⟨2048 + o.val, by omega⟩ rfl

theorem q2_apply (x0 : Vec Ideal S4x256x1024 .f32) (x1 : Vec Ideal S4x256x1 .f32) (x2 : Vec Ideal S1024x3072 .bf16)
    (x3 : Vec Ideal S3072 .f32) (x4 : Vec Ideal S1024x1024 .bf16) (x5 : Vec Ideal S1024 .f32) (r : Fin 256) (o : Fin 1024) :
    k0_pay12 (F := Ideal) (View.ld x2 rW) (View.ld x3 rB) (View.ld x0 rF2) (ValueIdx.ix2 r o)
      = (qkv (rowOfBlocks x0 x1 r) (wtsOfBlocks x2 x3 x4 x5)).q 2 o :=
  band_at x0 x2 x3 2 2 rfl inb_S4x256x1024_S1x256x1024_2_0_0 0 slices_S256x3072_o0_0_S256x1024 r o ⟨o.val, by omega⟩ (by show o.val = 0 + o.val; omega)

theorem k2_apply (x0 : Vec Ideal S4x256x1024 .f32) (x1 : Vec Ideal S4x256x1 .f32) (x2 : Vec Ideal S1024x3072 .bf16)
    (x3 : Vec Ideal S3072 .f32) (x4 : Vec Ideal S1024x1024 .bf16) (x5 : Vec Ideal S1024 .f32) (r : Fin 256) (o : Fin 1024) :
    k0_pay13 (F := Ideal) (View.ld x2 rW) (View.ld x3 rB) (View.ld x0 rF2) (ValueIdx.ix2 r o)
      = (qkv (rowOfBlocks x0 x1 r) (wtsOfBlocks x2 x3 x4 x5)).k 2 o :=
  band_at x0 x2 x3 2 2 rfl inb_S4x256x1024_S1x256x1024_2_0_0 1024 slices_S256x3072_o0_1024_S256x1024 r o ⟨1024 + o.val, by omega⟩ rfl

theorem v2_apply (x0 : Vec Ideal S4x256x1024 .f32) (x1 : Vec Ideal S4x256x1 .f32) (x2 : Vec Ideal S1024x3072 .bf16)
    (x3 : Vec Ideal S3072 .f32) (x4 : Vec Ideal S1024x1024 .bf16) (x5 : Vec Ideal S1024 .f32) (r : Fin 256) (o : Fin 1024) :
    k0_pay14 (F := Ideal) (View.ld x2 rW) (View.ld x3 rB) (View.ld x0 rF2) (ValueIdx.ix2 r o)
      = (qkv (rowOfBlocks x0 x1 r) (wtsOfBlocks x2 x3 x4 x5)).v 2 o :=
  band_at x0 x2 x3 2 2 rfl inb_S4x256x1024_S1x256x1024_2_0_0 2048 slices_S256x3072_o0_2048_S256x1024 r o ⟨2048 + o.val, by omega⟩ rfl

theorem q3_apply (x0 : Vec Ideal S4x256x1024 .f32) (x1 : Vec Ideal S4x256x1 .f32) (x2 : Vec Ideal S1024x3072 .bf16)
    (x3 : Vec Ideal S3072 .f32) (x4 : Vec Ideal S1024x1024 .bf16) (x5 : Vec Ideal S1024 .f32) (r : Fin 256) (o : Fin 1024) :
    k0_pay18 (F := Ideal) (k0_pay15 (View.ld x2 rW) (View.ld x0 rF3)) (k0_pay16 (View.ld x3 rB)) (ValueIdx.ix2 r o)
      = (qkv (rowOfBlocks x0 x1 r) (wtsOfBlocks x2 x3 x4 x5)).q 3 o :=
  band_at x0 x2 x3 3 3 rfl inb_S4x256x1024_S1x256x1024_3_0_0 0 slices_S256x3072_o0_0_S256x1024 r o ⟨o.val, by omega⟩ (by show o.val = 0 + o.val; omega)

theorem k3_apply (x0 : Vec Ideal S4x256x1024 .f32) (x1 : Vec Ideal S4x256x1 .f32) (x2 : Vec Ideal S1024x3072 .bf16)
    (x3 : Vec Ideal S3072 .f32) (x4 : Vec Ideal S1024x1024 .bf16) (x5 : Vec Ideal S1024 .f32) (r : Fin 256) (o : Fin 1024) :
    k0_pay19 (F := Ideal) (k0_pay15 (View.ld x2 rW) (View.ld x0 rF3)) (k0_pay16 (View.ld x3 rB)) (ValueIdx.ix2 r o)
      = (qkv (rowOfBlocks x0 x1 r) (wtsOfBlocks x2 x3 x4 x5)).k 3 o :=
  band_at x0 x2 x3 3 3 rfl inb_S4x256x1024_S1x256x1024_3_0_0 1024 slices_S256x3072_o0_1024_S256x1024 r o ⟨1024 + o.val, by omega⟩ rfl

theorem v3_apply (x0 : Vec Ideal S4x256x1024 .f32) (x1 : Vec Ideal S4x256x1 .f32) (x2 : Vec Ideal S1024x3072 .bf16)
    (x3 : Vec Ideal S3072 .f32) (x4 : Vec Ideal S1024x1024 .bf16) (x5 : Vec Ideal S1024 .f32) (r : Fin 256) (o : Fin 1024) :
    k0_pay20 (F := Ideal) (k0_pay15 (View.ld x2 rW) (View.ld x0 rF3)) (k0_pay16 (View.ld x3 rB)) (ValueIdx.ix2 r o)
      = (qkv (rowOfBlocks x0 x1 r) (wtsOfBlocks x2 x3 x4 x5)).v 3 o :=
  band_at x0 x2 x3 3 3 rfl inb_S4x256x1024_S1x256x1024_3_0_0 2048 slices_S256x3072_o0_2048_S256x1024 r o ⟨2048 + o.val, by omega⟩ rfl

end Cert.KernelIdeal.ProjValue

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KernelMix.lean ====
/-
  The body after the projections, read at a row `r` and an output feature `j`: with the row's queries, keys,
  values and confidences read off the projected arrays and the confidence slabs, the stored value is the fused
  attention result in the reciprocal spelling of the weights: per query modality the four dot products over
  the 1024 features (a lane sum kept as a column), scaled by 1/32 and the confidence, their running maximum,
  the four exponentials, their sum left to right, one reciprocal, the four weighted values summed left to
  right; the four mixtures summed left to right and scaled by 1/4; the product with the transposed output
  weight into the zero accumulator, plus the bias.
-/
import proofs.«411035_j70385924046872_3_alg».proof.Proof.KernelTail
import proofs.«411035_j70385924046872_3_alg».proof.Proof.AttnRow
import proofs.«411035_j70385924046872_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MixValue

open Cert.KernelIdeal Cert.KernelIdeal.Gen Cert.KernelIdeal.Frame Cert.KernelIdeal.Tail
open Idealize.ShloMosaic Idealize.ShloMosaic.TcCoe Cert.AttnRow

/-- The score column of a query array against a key array under a confidence slab. -/
private def scoreV (q k : FVec Ideal S256x1024 .f32) (c : Vec Ideal S1x256x1 .f32) : FVec Ideal S256x1 .f32 :=
  mulf (mulf (shapeCast S256x1 (multiReduction (F := Ideal) .add [1] S256 (mulf q k) 0x00000000#32 reduces_S256x1024_S256 (.inl rfl) rfl) shapeCasts_S256_S256x1)
      (broadcast S256x1 (Scalar.ofBits (F := Ideal) .f32 0x3D000000#32)))
    (shapeCast S256x1 c shapeCasts_S1x256x1_S256x1)

/-- A column broadcast along the rows. -/
private def bt (c : FVec Ideal S256x1 .f32) : FVec Ideal S256x1024 .f32 := broadcastTo S256x1024 c broadcasts_S256x1_S256x1024

/-- The four values mixed by the normalised weights of four score columns. -/
private def mixV (s0 s1 s2 s3 : FVec Ideal S256x1 .f32) (w0 w1 w2 w3 : FVec Ideal S256x1024 .f32) : FVec Ideal S256x1024 .f32 :=
  let mx := maximumf (maximumf (maximumf s0 s1) s2) s3
  let e0 := exp (subf s0 mx)
  let e1 := exp (subf s1 mx)
  let e2 := exp (subf s2 mx)
  let e3 := exp (subf s3 mx)
  let inv := divf (broadcast S256x1 (Scalar.ofBits (F := Ideal) .f32 0x3F800000#32)) (addf (addf (addf e0 e1) e2) e3)
  addf (addf (addf (mulf (bt (mulf e0 inv)) w0) (mulf (bt (mulf e1 inv)) w1)) (mulf (bt (mulf e2 inv)) w2)) (mulf (bt (mulf e3 inv)) w3)

/-- The body after the projections, spelled by layers. -/
private def tailV (v11 v12 v13 v21 v22 v23 v31 v32 v33 : FVec Ideal S256x1024 .f32) (v37 v39 : FVec Ideal S256x3072 .f32)
    (v44 v101 v159 v217 : Vec Ideal S1x256x1 .f32) (v278 : Vec Ideal S1024x1024 .bf16) (v281 : Vec Ideal S1024 .f32) : FVec Ideal S256x1024 .f32 :=
  let v41 := k0_pay18 v37 v39
  let v42 := k0_pay19 v37 v39
  let v43 := k0_pay20 v37 v39
  let a0 := mixV (scoreV v11 v12 v44) (scoreV v11 v22 v44) (scoreV v11 v32 v44) (scoreV v11 v42 v44) v13 v23 v33 v43
  let a1 := mixV (scoreV v21 v12 v101) (scoreV v21 v22 v101) (scoreV v21 v32 v101) (scoreV v21 v42 v101) v13 v23 v33 v43
  let a2 := mixV (scoreV v31 v12 v159) (scoreV v31 v22 v159) (scoreV v31 v32 v159) (scoreV v31 v42 v159) v13 v23 v33 v43
  let a3 := mixV (scoreV v41 v12 v217) (scoreV v41 v22 v217) (scoreV v41 v32 v217) (scoreV v41 v42 v217) v13 v23 v33 v43
  addf (matmul dot_S256x1024_S1024x1024_S256x1024_1_0_0_1_n_n none
      (truncf .bf16 (mulf (addf (addf (addf a0 a1) a2) a3) (broadcast S256x1024 (Scalar.ofBits (F := Ideal) .f32 0x3E800000#32))) bitsLt_bf16_f32)
      (shapeCast S1024x1024 (v278 : FVec Ideal S1024x1024 .bf16) shapeCasts_S1024x1024_S1024x1024 : FVec Ideal S1024x1024 .bf16) (constant (F := Ideal) S256x1024 .f32 0x00000000#32))
    (broadcastTo S256x1024 (shapeCast S1x1024 v281 shapeCasts_S1024_S1x1024) broadcasts_S1x1024_S256x1024)

private theorem bodyTail_eq (v11 v12 v13 v21 v22 v23 v31 v32 v33 : FVec Ideal S256x1024 .f32) (v37 v39 : FVec Ideal S256x3072 .f32)
    (v44 v101 v159 v217 : Vec Ideal S1x256x1 .f32) (v278 : Vec Ideal S1024x1024 .bf16) (v281 : Vec Ideal S1024 .f32) :
    bodyTail (F := Ideal) v11 v12 v13 v21 v22 v23 v31 v32 v33 v37 v39 v44 v101 v159 v217 v278 v281
      = tailV v11 v12 v13 v21 v22 v23 v31 v32 v33 v37 v39 v44 v101 v159 v217 v278 v281 := rfl

private theorem scoreV_apply (q k : FVec Ideal S256x1024 .f32) (c : Vec Ideal S1x256x1 .f32) (r : Fin 256) :
    scoreV q k c (ValueIdx.ix2 r (0 : Fin 1))
      = (∑ o : Fin 1024, q (ValueIdx.ix2 r o) * k (ValueIdx.ix2 r o)) * ((1 / 32 : ℝ) : EReal) * c (ValueIdx.ix3 (0 : Fin 1) r (0 : Fin 1)) := by
  unfold scoreV
  rw [ValueIdx.mulf_apply, ValueIdx.mulf_apply, ValueIdx.broadcast_apply, Keepdims.shapeCast_a_a1_apply]
  exact congrArg₂ (· * ·) (congrArg₂ (· * ·) (Keepdims.laneSum_apply _ _ _ _ _ r) ofBits_thirtysecond) (ValueIdx.shapeCast_1ab_ab_apply c _ r 0)

private theorem bt_apply (c : FVec Ideal S256x1 .f32) (r : Fin 256) (o : Fin 1024) :
    bt c (ValueIdx.ix2 r o) = c (ValueIdx.ix2 r (0 : Fin 1)) :=
  Keepdims.broadcastTo_a1_ab_apply c broadcasts_S256x1_S256x1024 r o

/-- The mixture of four numbers by the normalised weights of four scores, with the numerator of the reciprocal a parameter. -/
private def mixS (one s0 s1 s2 s3 w0 w1 w2 w3 : EReal) : EReal :=
  ((Ideal.exp (s0 - max (max (max s0 s1) s2) s3)
        * Ideal.div one (((Ideal.exp (s0 - max (max (max s0 s1) s2) s3) + Ideal.exp (s1 - max (max (max s0 s1) s2) s3))
            + Ideal.exp (s2 - max (max (max s0 s1) s2) s3)) + Ideal.exp (s3 - max (max (max s0 s1) s2) s3)) * w0
      + Ideal.exp (s1 - max (max (max s0 s1) s2) s3)
        * Ideal.div one (((Ideal.exp (s0 - max (max (max s0 s1) s2) s3) + Ideal.exp (s1 - max (max (max s0 s1) s2) s3))
            + Ideal.exp (s2 - max (max (max s0 s1) s2) s3)) + Ideal.exp (s3 - max (max (max s0 s1) s2) s3)) * w1)
      + Ideal.exp (s2 - max (max (max s0 s1) s2) s3)
        * Ideal.div one (((Ideal.exp (s0 - max (max (max s0 s1) s2) s3) + Ideal.exp (s1 - max (max (max s0 s1) s2) s3))
            + Ideal.exp (s2 - max (max (max s0 s1) s2) s3)) + Ideal.exp (s3 - max (max (max s0 s1) s2) s3)) * w2)
      + Ideal.exp (s3 - max (max (max s0 s1) s2) s3)
        * Ideal.div one (((Ideal.exp (s0 - max (max (max s0 s1) s2) s3) + Ideal.exp (s1 - max (max (max s0 s1) s2) s3))
            + Ideal.exp (s2 - max (max (max s0 s1) s2) s3)) + Ideal.exp (s3 - max (max (max s0 s1) s2) s3)) * w3

private theorem mixV_apply (s0 s1 s2 s3 : FVec Ideal S256x1 .f32) (w0 w1 w2 w3 : FVec Ideal S256x1024 .f32) (r : Fin 256) (o : Fin 1024) :
    mixV s0 s1 s2 s3 w0 w1 w2 w3 (ValueIdx.ix2 r o)
      = mixS 1 (s0 (ValueIdx.ix2 r (0 : Fin 1))) (s1 (ValueIdx.ix2 r (0 : Fin 1))) (s2 (ValueIdx.ix2 r (0 : Fin 1))) (s3 (ValueIdx.ix2 r (0 : Fin 1)))
          (w0 (ValueIdx.ix2 r o)) (w1 (ValueIdx.ix2 r o)) (w2 (ValueIdx.ix2 r o)) (w3 (ValueIdx.ix2 r o)) := by
  unfold mixV
  simp only [ValueIdx.addf_apply, ValueIdx.mulf_apply, bt_apply]
  rw [← ofBits_one]
  rfl

/-- The mixture at the row's scores and values is the row's attention result in the reciprocal spelling. -/
private theorem mixS_att (P : QKV) (m : Fin 4) (o : Fin 1024) :
    mixS 1 (P.score m 0) (P.score m 1) (P.score m 2) (P.score m 3) (P.v 0 o) (P.v 1 o) (P.v 2 o) (P.v 3 o) = P.att P.wtK m o := by
  simp only [QKV.att, QKV.wtK, QKV.den, QKV.ex, QKV.smax, Fin.sum_univ_four, mixS]

/-! The output projection's product at an index. -/

private theorem lhs_mm_0 (i : S256x1024.Idx) (q : Cert.KernelIdeal.dot_S256x1024_S1024x1024_S256x1024_1_0_0_1_n_n.contr.Idx) :
    (Cert.KernelIdeal.dot_S256x1024_S1024x1024_S256x1024_1_0_0_1_n_n.lhsIdx i q 0).val = (i 0).val := by
  unfold DotDims.lhsIdx
  rw [dif_neg (show ¬(0 : Fin S256x1024.rank) ∈ Cert.KernelIdeal.dot_S256x1024_S1024x1024_S256x1024_1_0_0_1_n_n.lhsBatch by decide), dif_pos (show (0 : Fin S256x1024.rank) ∈ Cert.KernelIdeal.dot_S256x1024_S1024x1024_S256x1024_1_0_0_1_n_n.lhsNonContracting by decide)]
  rfl
private theorem lhs_mm_1 (i : S256x1024.Idx) (q : Cert.KernelIdeal.dot_S256x1024_S1024x1024_S256x1024_1_0_0_1_n_n.contr.Idx) :
    (Cert.KernelIdeal.dot_S256x1024_S1024x1024_S256x1024_1_0_0_1_n_n.lhsIdx i q 1).val = (q ⟨0, by decide⟩).val :=
  Cert.KernelIdeal.dot_S256x1024_S1024x1024_S256x1024_1_0_0_1_n_n.lhsIdx_val_of_single rfl i q
private theorem rhs_mm_0 (i : S256x1024.Idx) (q : Cert.KernelIdeal.dot_S256x1024_S1024x1024_S256x1024_1_0_0_1_n_n.contr.Idx) :
    (Cert.KernelIdeal.dot_S256x1024_S1024x1024_S256x1024_1_0_0_1_n_n.rhsIdx i q 0).val = (q ⟨0, by decide⟩).val :=
  Cert.KernelIdeal.dot_S256x1024_S1024x1024_S256x1024_1_0_0_1_n_n.rhsIdx_val_of_single rfl i q
private theorem rhs_mm_1 (i : S256x1024.Idx) (q : Cert.KernelIdeal.dot_S256x1024_S1024x1024_S256x1024_1_0_0_1_n_n.contr.Idx) :
    (Cert.KernelIdeal.dot_S256x1024_S1024x1024_S256x1024_1_0_0_1_n_n.rhsIdx i q 1).val = (i 1).val := by
  unfold DotDims.rhsIdx
  rw [dif_neg (show ¬(1 : Fin S1024x1024.rank) ∈ Cert.KernelIdeal.dot_S256x1024_S1024x1024_S256x1024_1_0_0_1_n_n.rhsBatch by decide), dif_pos (show (1 : Fin S1024x1024.rank) ∈ Cert.KernelIdeal.dot_S256x1024_S1024x1024_S256x1024_1_0_0_1_n_n.rhsNonContracting by decide)]
  rfl

private theorem mm_apply (x : FVec Ideal S256x1024 .bf16) (w : FVec Ideal S1024x1024 .bf16) (r : Fin 256) (j : Fin 1024) :
    matmul Cert.KernelIdeal.dot_S256x1024_S1024x1024_S256x1024_1_0_0_1_n_n none x w (constant (F := Ideal) S256x1024 .f32 0x00000000#32) (ValueIdx.ix2 r j)
      = ∑ k : Fin 1024, x (ValueIdx.ix2 r k) * w (ValueIdx.ix2 k j) := by
  show FloatOps.matmul Cert.KernelIdeal.dot_S256x1024_S1024x1024_S256x1024_1_0_0_1_n_n none x w (constant (F := Ideal) S256x1024 .f32 0x00000000#32) (ValueIdx.ix2 r j) = _
  rw [Ideal.matmul_constant_zero_apply, ← Equiv.sum_comp (ValueIdx.contrEquiv1 Cert.KernelIdeal.dot_S256x1024_S1024x1024_S256x1024_1_0_0_1_n_n 1024 rfl rfl).symm]
  refine Finset.sum_congr rfl fun k _ => ?_
  have hk := ValueIdx.contrEquiv1_symm_val Cert.KernelIdeal.dot_S256x1024_S1024x1024_S256x1024_1_0_0_1_n_n 1024 rfl rfl k
  have el : Cert.KernelIdeal.dot_S256x1024_S1024x1024_S256x1024_1_0_0_1_n_n.lhsIdx (ValueIdx.ix2 r j) ((ValueIdx.contrEquiv1 Cert.KernelIdeal.dot_S256x1024_S1024x1024_S256x1024_1_0_0_1_n_n 1024 rfl rfl).symm k) = ValueIdx.ix2 r k := funext fun a => Fin.ext (by
    match a with
    | ⟨0, _⟩ => exact lhs_mm_0 _ _
    | ⟨1, _⟩ => exact (lhs_mm_1 _ _).trans hk)
  have er : Cert.KernelIdeal.dot_S256x1024_S1024x1024_S256x1024_1_0_0_1_n_n.rhsIdx (ValueIdx.ix2 r j) ((ValueIdx.contrEquiv1 Cert.KernelIdeal.dot_S256x1024_S1024x1024_S256x1024_1_0_0_1_n_n 1024 rfl rfl).symm k) = ValueIdx.ix2 k j := funext fun a => Fin.ext (by
    match a with
    | ⟨0, _⟩ => exact (rhs_mm_0 _ _).trans hk
    | ⟨1, _⟩ => exact rhs_mm_1 _ _)
  rw [el, er]

private theorem bias_apply (b : Vec Ideal S1024 .f32) (r : Fin 256) (j : Fin 1024) :
    broadcastTo S256x1024 (shapeCast S1x1024 b shapeCasts_S1024_S1x1024) broadcasts_S1x1024_S256x1024 (ValueIdx.ix2 r j) = b (ValueIdx.ix1 j) :=
  (ValueIdx.broadcastTo_1b_ab_apply _ broadcasts_S1x1024_S256x1024 r j).trans (ValueIdx.shapeCast_a_1a_apply b shapeCasts_S1024_S1x1024 0 j)

/-- The layered body at an index: the product of the scaled sum of the four mixtures with the output weight, plus the bias. -/
private theorem tailV_apply (v11 v12 v13 v21 v22 v23 v31 v32 v33 : FVec Ideal S256x1024 .f32) (v37 v39 : FVec Ideal S256x3072 .f32)
    (v44 v101 v159 v217 : Vec Ideal S1x256x1 .f32) (v278 : Vec Ideal S1024x1024 .bf16) (v281 : Vec Ideal S1024 .f32)
    (r : Fin 256) (j : Fin 1024) :
    tailV v11 v12 v13 v21 v22 v23 v31 v32 v33 v37 v39 v44 v101 v159 v217 v278 v281 (ValueIdx.ix2 r j)
      = (∑ k : Fin 1024,
          ((((mixV (scoreV v11 v12 v44) (scoreV v11 v22 v44) (scoreV v11 v32 v44) (scoreV v11 (k0_pay19 v37 v39) v44)
                  v13 v23 v33 (k0_pay20 v37 v39) (ValueIdx.ix2 r k)
              + mixV (scoreV v21 v12 v101) (scoreV v21 v22 v101) (scoreV v21 v32 v101) (scoreV v21 (k0_pay19 v37 v39) v101)
                  v13 v23 v33 (k0_pay20 v37 v39) (ValueIdx.ix2 r k))
              + mixV (scoreV v31 v12 v159) (scoreV v31 v22 v159) (scoreV v31 v32 v159) (scoreV v31 (k0_pay19 v37 v39) v159)
                  v13 v23 v33 (k0_pay20 v37 v39) (ValueIdx.ix2 r k))
              + mixV (scoreV (k0_pay18 v37 v39) v12 v217) (scoreV (k0_pay18 v37 v39) v22 v217) (scoreV (k0_pay18 v37 v39) v32 v217)
                  (scoreV (k0_pay18 v37 v39) (k0_pay19 v37 v39) v217) v13 v23 v33 (k0_pay20 v37 v39) (ValueIdx.ix2 r k))
            * ((1 / 4 : ℝ) : EReal)) * v278 (ValueIdx.ix2 k j))
        + v281 (ValueIdx.ix1 j) := by
  unfold tailV
  refine (ValueIdx.addf_apply _ _ _).trans ?_
  refine congrArg₂ (· + ·) ((mm_apply _ _ r j).trans (Finset.sum_congr rfl fun k _ => ?_)) (bias_apply v281 r j)
  rw [shapeCast_self]
  refine congrArg₂ (· * ·) ?_ rfl
  exact congrArg₂ (· * ·) rfl ofBits_quarter

/-- A mixture of the layered body at an index is the row's attention result, once its arrays are read as the row's. -/
private theorem mix_row (P : QKV) (m : Fin 4) (q k0 k1 k2 k3 w0 w1 w2 w3 : FVec Ideal S256x1024 .f32) (c : Vec Ideal S1x256x1 .f32)
    (r : Fin 256) (o : Fin 1024)
    (hq : ∀ h, q (ValueIdx.ix2 r h) = P.q m h)
    (hk0 : ∀ h, k0 (ValueIdx.ix2 r h) = P.k 0 h) (hk1 : ∀ h, k1 (ValueIdx.ix2 r h) = P.k 1 h)
    (hk2 : ∀ h, k2 (ValueIdx.ix2 r h) = P.k 2 h) (hk3 : ∀ h, k3 (ValueIdx.ix2 r h) = P.k 3 h)
    (hc : c (ValueIdx.ix3 (0 : Fin 1) r (0 : Fin 1)) = P.conf m)
    (hw0 : w0 (ValueIdx.ix2 r o) = P.v 0 o) (hw1 : w1 (ValueIdx.ix2 r o) = P.v 1 o)
    (hw2 : w2 (ValueIdx.ix2 r o) = P.v 2 o) (hw3 : w3 (ValueIdx.ix2 r o) = P.v 3 o) :
    mixV (scoreV q k0 c) (scoreV q k1 c) (scoreV q k2 c) (scoreV q k3 c) w0 w1 w2 w3 (ValueIdx.ix2 r o) = P.att P.wtK m o := by
  have hs : ∀ (n : Fin 4) (k : FVec Ideal S256x1024 .f32), (∀ h, k (ValueIdx.ix2 r h) = P.k n h) →
      scoreV q k c (ValueIdx.ix2 r (0 : Fin 1)) = P.score m n := fun n k hk => by
    rw [scoreV_apply, hc]
    unfold QKV.score QKV.qk
    refine congrArg₂ (· * ·) (congrArg₂ (· * ·) (Finset.sum_congr rfl fun h _ => ?_) rfl) rfl
    rw [hq h, hk h]
  rw [mixV_apply, hs 0 k0 hk0, hs 1 k1 hk1, hs 2 k2 hk2, hs 3 k3 hk3, hw0, hw1, hw2, hw3]
  exact mixS_att P m o

theorem tail_apply (v11 v12 v13 v21 v22 v23 v31 v32 v33 : FVec Ideal S256x1024 .f32) (v37 v39 : FVec Ideal S256x3072 .f32)
    (v44 v101 v159 v217 : Vec Ideal S1x256x1 .f32) (v278 : Vec Ideal S1024x1024 .bf16) (v281 : Vec Ideal S1024 .f32)
    (r : Fin 256) (j : Fin 1024) :
    bodyTail (F := Ideal) v11 v12 v13 v21 v22 v23 v31 v32 v33 v37 v39 v44 v101 v159 v217 v278 v281 (ValueIdx.ix2 r j)
      = (QKV.mk
          (fun mm o => (![v11, v21, v31, k0_pay18 v37 v39] mm) (ValueIdx.ix2 r o))
          (fun mm o => (![v12, v22, v32, k0_pay19 v37 v39] mm) (ValueIdx.ix2 r o))
          (fun mm o => (![v13, v23, v33, k0_pay20 v37 v39] mm) (ValueIdx.ix2 r o))
          (fun mm => (![v44, v101, v159, v217] mm) (ValueIdx.ix3 (0 : Fin 1) r (0 : Fin 1)))
          (fun j o => v278 (ValueIdx.ix2 o j))
          (fun j => v281 (ValueIdx.ix1 j))).outK j := by
  rw [bodyTail_eq, tailV_apply]
  unfold QKV.outK QKV.out
  refine congrArg₂ (· + ·) (Finset.sum_congr rfl fun k _ => ?_) rfl
  refine congrArg₂ (· * ·) ?_ rfl
  unfold QKV.fused
  rw [Fin.sum_univ_four]
  refine congrArg₂ (· * ·) (congrArg₂ (· + ·) (congrArg₂ (· + ·) (congrArg₂ (· + ·) ?_ ?_) ?_) ?_) rfl
  · exact mix_row _ 0 v11 v12 v22 v32 (k0_pay19 v37 v39) v13 v23 v33 (k0_pay20 v37 v39) v44 r k
      (fun _ => rfl) (fun _ => rfl) (fun _ => rfl) (fun _ => rfl) (fun _ => rfl) rfl rfl rfl rfl rfl
  · exact mix_row _ 1 v21 v12 v22 v32 (k0_pay19 v37 v39) v13 v23 v33 (k0_pay20 v37 v39) v101 r k
      (fun _ => rfl) (fun _ => rfl) (fun _ => rfl) (fun _ => rfl) (fun _ => rfl) rfl rfl rfl rfl rfl
  · exact mix_row _ 2 v31 v12 v22 v32 (k0_pay19 v37 v39) v13 v23 v33 (k0_pay20 v37 v39) v159 r k
      (fun _ => rfl) (fun _ => rfl) (fun _ => rfl) (fun _ => rfl) (fun _ => rfl) rfl rfl rfl rfl rfl
  · exact mix_row _ 3 (k0_pay18 v37 v39) v12 v22 v32 (k0_pay19 v37 v39) v13 v23 v33 (k0_pay20 v37 v39) v217 r k
      (fun _ => rfl) (fun _ => rfl) (fun _ => rfl) (fun _ => rfl) (fun _ => rfl) rfl rfl rfl rfl rfl

end Cert.KernelIdeal.MixValue

end
-- ==== Proof.KernelBody.lean ====
/-
  The block the body stores, read at a row `r` and an output feature `j`: it is the attention-fusion result of
  row `r` of the tile, in the reciprocal spelling of the weights. The projections give the row's queries, keys
  and values; the rest of the body mixes them.
-/
import proofs.«411035_j70385924046872_3_alg».proof.Proof.FrameKernelIdeal
import proofs.«411035_j70385924046872_3_alg».proof.Proof.KernelTail
import proofs.«411035_j70385924046872_3_alg».proof.Proof.KernelProj
import proofs.«411035_j70385924046872_3_alg».proof.Proof.KernelMix
import proofs.«411035_j70385924046872_3_alg».proof.Proof.AttnRow
import Idealize.ShloMosaic.Lib.ValueIdx
import Idealize.ShloMosaic.Lib.Pipeline.Value

noncomputable section

namespace Cert.KernelIdeal.BodyValue

open Cert.KernelIdeal Cert.KernelIdeal.Gen Cert.KernelIdeal.Frame Cert.KernelIdeal.Tail
open Idealize.ShloMosaic Idealize.ShloMosaic.TcCoe Cert.AttnRow

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The confidence of modality `mm` at row `r`, read through the load of that modality's slab. -/
theorem conf_ld (x1 : Vec Ideal S4x256x1 .f32) (r : Fin 256) :
    (fun mm : Fin 4 => (![View.ld x1 rC0, View.ld x1 rC1, View.ld x1 rC2, View.ld x1 rC3] mm) (ValueIdx.ix3 (0 : Fin 1) r (0 : Fin 1)))
      = fun mm => x1 (ValueIdx.ix3 mm r (0 : Fin 1)) := by
  funext mm
  fin_cases mm
  · show x1 (rC0.idx (ValueIdx.ix3 (0 : Fin 1) r (0 : Fin 1))) = _
    refine congrArg x1 (funext fun a => Fin.ext ?_)
    match a with
    | ⟨0, _⟩ => rfl
    | ⟨1, _⟩ => show 0 + 1 * r.val = r.val; omega
    | ⟨2, _⟩ => rfl
  · show x1 (rC1.idx (ValueIdx.ix3 (0 : Fin 1) r (0 : Fin 1))) = _
    refine congrArg x1 (funext fun a => Fin.ext ?_)
    match a with
    | ⟨0, _⟩ => rfl
    | ⟨1, _⟩ => show 0 + 1 * r.val = r.val; omega
    | ⟨2, _⟩ => rfl
  · show x1 (rC2.idx (ValueIdx.ix3 (0 : Fin 1) r (0 : Fin 1))) = _
    refine congrArg x1 (funext fun a => Fin.ext ?_)
    match a with
    | ⟨0, _⟩ => rfl
    | ⟨1, _⟩ => show 0 + 1 * r.val = r.val; omega
    | ⟨2, _⟩ => rfl
  · show x1 (rC3.idx (ValueIdx.ix3 (0 : Fin 1) r (0 : Fin 1))) = _
    refine congrArg x1 (funext fun a => Fin.ext ?_)
    match a with
    | ⟨0, _⟩ => rfl
    | ⟨1, _⟩ => show 0 + 1 * r.val = r.val; omega
    | ⟨2, _⟩ => rfl

/-- The stored block at (row, output feature) is that row's fused attention result. -/
theorem bodyVal_apply (x0 : Vec Ideal S4x256x1024 .f32) (x1 : Vec Ideal S4x256x1 .f32) (x2 : Vec Ideal S1024x3072 .bf16)
    (x3 : Vec Ideal S3072 .f32) (x4 : Vec Ideal S1024x1024 .bf16) (x5 : Vec Ideal S1024 .f32) (r : Fin 256) (j : Fin 1024) :
    bodyVal (F := Ideal) x0 x1 x2 x3 x4 x5 (ValueIdx.ix2 r j)
      = Cert.AttnRow.outRowK (Cert.AttnRow.rowOfBlocks x0 x1 r) (Cert.AttnRow.wtsOfBlocks x2 x3 x4 x5) j := by
  rw [bodyVal_eq_tail]
  refine (MixValue.tail_apply _ _ _ _ _ _ _ _ _ _ _ _ _ _ _ _ _ r j).trans ?_
  unfold outRowK
  refine congrArg (fun P : QKV => P.outK j) ?_
  have hq : (fun (mm : Fin 4) (o : Fin 1024) => (![k0_pay4 (F := Ideal) (View.ld x2 rW) (View.ld x3 rB) (View.ld x0 rF0),
        k0_pay8 (View.ld x2 rW) (View.ld x3 rB) (View.ld x0 rF1), k0_pay12 (View.ld x2 rW) (View.ld x3 rB) (View.ld x0 rF2),
        k0_pay18 (k0_pay15 (View.ld x2 rW) (View.ld x0 rF3)) (k0_pay16 (View.ld x3 rB))] mm) (ValueIdx.ix2 r o))
      = (qkv (rowOfBlocks x0 x1 r) (wtsOfBlocks x2 x3 x4 x5)).q := by
    funext mm o
    fin_cases mm
    · exact ProjValue.q0_apply x0 x1 x2 x3 x4 x5 r o
    · exact ProjValue.q1_apply x0 x1 x2 x3 x4 x5 r o
    · exact ProjValue.q2_apply x0 x1 x2 x3 x4 x5 r o
    · exact ProjValue.q3_apply x0 x1 x2 x3 x4 x5 r o
  have hk : (fun (mm : Fin 4) (o : Fin 1024) => (![k0_pay5 (F := Ideal) (View.ld x2 rW) (View.ld x3 rB) (View.ld x0 rF0),
        k0_pay9 (View.ld x2 rW) (View.ld x3 rB) (View.ld x0 rF1), k0_pay13 (View.ld x2 rW) (View.ld x3 rB) (View.ld x0 rF2),
        k0_pay19 (k0_pay15 (View.ld x2 rW) (View.ld x0 rF3)) (k0_pay16 (View.ld x3 rB))] mm) (ValueIdx.ix2 r o))
      = (qkv (rowOfBlocks x0 x1 r) (wtsOfBlocks x2 x3 x4 x5)).k := by
    funext mm o
    fin_cases mm
    · exact ProjValue.k0_apply x0 x1 x2 x3 x4 x5 r o
    · exact ProjValue.k1_apply x0 x1 x2 x3 x4 x5 r o
    · exact ProjValue.k2_apply x0 x1 x2 x3 x4 x5 r o
    · exact ProjValue.k3_apply x0 x1 x2 x3 x4 x5 r o
  have hv : (fun (mm : Fin 4) (o : Fin 1024) => (![k0_pay6 (F := Ideal) (View.ld x2 rW) (View.ld x3 rB) (View.ld x0 rF0),
        k0_pay10 (View.ld x2 rW) (View.ld x3 rB) (View.ld x0 rF1), k0_pay14 (View.ld x2 rW) (View.ld x3 rB) (View.ld x0 rF2),
        k0_pay20 (k0_pay15 (View.ld x2 rW) (View.ld x0 rF3)) (k0_pay16 (View.ld x3 rB))] mm) (ValueIdx.ix2 r o))
      = (qkv (rowOfBlocks x0 x1 r) (wtsOfBlocks x2 x3 x4 x5)).v := by
    funext mm o
    fin_cases mm
    · exact ProjValue.v0_apply x0 x1 x2 x3 x4 x5 r o
    · exact ProjValue.v1_apply x0 x1 x2 x3 x4 x5 r o
    · exact ProjValue.v2_apply x0 x1 x2 x3 x4 x5 r o
    · exact ProjValue.v3_apply x0 x1 x2 x3 x4 x5 r o
  have hwo : (fun (j o : Fin 1024) => View.ld x4 rWo (ValueIdx.ix2 o j)) = (qkv (rowOfBlocks x0 x1 r) (wtsOfBlocks x2 x3 x4 x5)).wo := by
    funext j o
    show View.ld x4 rWo (ValueIdx.ix2 o j) = x4 (ValueIdx.ix2 o j)
    rw [View.ld_unit_zero (S := S1024x1024) hz2]
  have hbo : (fun (j : Fin 1024) => View.ld x5 rBo (ValueIdx.ix1 j)) = (qkv (rowOfBlocks x0 x1 r) (wtsOfBlocks x2 x3 x4 x5)).bo := by
    funext j
    show View.ld x5 rBo (ValueIdx.ix1 j) = x5 (ValueIdx.ix1 j)
    rw [View.ld_unit_zero (S := S1024) hz1]
  rw [hq, hk, hv, conf_ld, hwo, hbo]
  rfl

end Cert.KernelIdeal.BodyValue

end
-- ==== Proof.LibNary3.lean ====
/-
  A host operation over a literal family of THREE references (a concatenation of three operands), for any
  signature and any values: its result with each operand's contents at its own reference, so that the contents of
  the operands can be rewritten further. (The general form gives the operands as a function of the position; the
  library states this for four references.)
-/
import Idealize.ShloMosaic.Lib.StableHlo.Run

noncomputable section

namespace Idealize.ShloMosaic.StableHlo

variable {nD : Nat} {τ : Topo} {sig : RefSig} {Val : EltTy → Type}

/-- The result of an operation over a literal family of three references, each operand's contents at its own reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.KernelHost.lean ====
/-
  The arrays the region's windows stage, as functions of the argument arrays: the modality-first transposes of
  the features and confidences, the concatenated transposed projection weights and biases, and the transposed
  output weight. (The narrowing to the 16-bit format is the identity on the extended reals.)
-/
import proofs.«411035_j70385924046872_3_alg».proof.Proof.FrameKernelIdeal
import Idealize.ShloMosaic.Lib.ValueIdx
import Idealize.ShloMosaic.Lib.ValueLayout
import Idealize.ShloMosaic.Lib.Pipeline.Value
import Idealize.ShloMosaic.Lib.StableHlo.Run
import proofs.«411035_j70385924046872_3_alg».proof.Proof.LibNary3

noncomputable section

namespace Cert.KernelIdeal.HostValue

open Cert.KernelIdeal Cert.KernelIdeal.Gen Cert.KernelIdeal.Frame
open Idealize.ShloMosaic Idealize.ShloMosaic.TcCoe Idealize.SL.Sem

variable (m : (ℓ : Loc nD τ sig) → Buf (Elt Ideal) ℓ)

/-- Rewrites the contents after the host operations, at one result array, to the operations' term over the argument arrays. -/
local macro "host_results" : tactic =>
  `(tactic| (simp only [StableHlo.after_cons, StableHlo.after_nil]
             repeat (first
               | rw [StableHlo.unary_result] | rw [StableHlo.nary3_result]
               | (rw [StableHlo.unary_result_ne]; rotate_left; decide)
               | (rw [StableHlo.nary_result_ne]; rotate_left; decide))))

/-- A square weight array, transposed and narrowed. -/
private abbrev wT (x : S1024x1024.Idx → EReal) : S1024x1024.Idx → EReal :=
  truncf (F := Ideal) (φ := .f32) .bf16 (transpose S1024x1024 [1, 0] x transposes_S1024x1024_S1024x1024_1_0) bitsLt_bf16_f32

/-- The transposed and narrowed weight array at `(i, j)` is the weight array at `(j, i)`. -/
private theorem wT_apply (x : S1024x1024.Idx → EReal) (i j : Fin 1024) :
    wT x (ValueIdx.ix2 i j) = x (ValueIdx.ix2 j i) :=
  transpose_apply [1, 0] x transposes_S1024x1024_S1024x1024_1_0 (ValueIdx.ix2 i j) (ValueIdx.ix2 j i)
    (fun a => match a with | ⟨0, _⟩ => rfl | ⟨1, _⟩ => rfl)

/-! ## The host operations' terms -/

private theorem V_v10_eq (c : Dev nD) :
    @Eq (S4x8192x1024.Idx → EReal) (V m c main_v10)
      (transpose S4x8192x1024 [1, 0, 2] (m ((c : Thread nD τ).loc main_arg0)) transposes_S8192x4x1024_S4x8192x1024_1_0_2) := by
  dsimp only [V, hostOps0]
  host_results

private theorem V_v11_eq (c : Dev nD) :
    @Eq (S4x8192x1.Idx → EReal) (V m c main_v11)
      (transpose S4x8192x1 [1, 0, 2] (m ((c : Thread nD τ).loc main_arg1)) transposes_S8192x4x1_S4x8192x1_1_0_2) := by
  dsimp only [V, hostOps0]
  host_results

private theorem V_v6_eq (c : Dev nD) :
    @Eq (S1024x3072.Idx → EReal) (V m c main_v6) (concatenate S1024x3072 1
      [⟨S1024x1024, wT (m ((c : Thread nD τ).loc main_arg2))⟩,
       ⟨S1024x1024, wT (m ((c : Thread nD τ).loc main_arg4))⟩,
       ⟨S1024x1024, wT (m ((c : Thread nD τ).loc main_arg6))⟩]
      concatenates_S1024x1024_S1024x1024_S1024x1024_S1024x3072_d1) := by
  dsimp only [V, hostOps0]
  host_results
  rfl

private theorem V_v7_eq (c : Dev nD) :
    @Eq (S3072.Idx → EReal) (V m c main_v7) (concatenate S3072 0
      [⟨S1024, (m ((c : Thread nD τ).loc main_arg3) : S1024.Idx → EReal)⟩,
       ⟨S1024, (m ((c : Thread nD τ).loc main_arg5) : S1024.Idx → EReal)⟩,
       ⟨S1024, (m ((c : Thread nD τ).loc main_arg7) : S1024.Idx → EReal)⟩]
      concatenates_S1024_S1024_S1024_S3072_d0) := by
  dsimp only [V, hostOps0]
  host_results
  rfl

private theorem V_v9_eq (c : Dev nD) :
    @Eq (S1024x1024.Idx → EReal) (V m c main_v9) (wT (m ((c : Thread nD τ).loc main_arg8))) := by
  dsimp only [V, hostOps0]
  host_results

/-! ## The arrays at an index -/

theorem V_v10_apply (c : Dev nD) (mm : Fin 4) (b : Fin 8192) (h : Fin 1024) :
    (V m c main_v10 : S4x8192x1024.Idx → EReal) (ValueIdx.ix3 mm b h)
      = (m ((c : Thread nD τ).loc main_arg0) : S8192x4x1024.Idx → EReal) (ValueIdx.ix3 b mm h) := by
  rw [V_v10_eq]
  exact transpose_apply [1, 0, 2] _ transposes_S8192x4x1024_S4x8192x1024_1_0_2 (ValueIdx.ix3 mm b h) (ValueIdx.ix3 b mm h)
    (fun a => match a with | ⟨0, _⟩ => rfl | ⟨1, _⟩ => rfl | ⟨2, _⟩ => rfl)

theorem V_v11_apply (c : Dev nD) (mm : Fin 4) (b : Fin 8192) :
    (V m c main_v11 : S4x8192x1.Idx → EReal) (ValueIdx.ix3 mm b (0 : Fin 1))
      = (m ((c : Thread nD τ).loc main_arg1) : S8192x4x1.Idx → EReal) (ValueIdx.ix3 b mm (0 : Fin 1)) := by
  rw [V_v11_eq]
  exact transpose_apply [1, 0, 2] _ transposes_S8192x4x1_S4x8192x1_1_0_2 (ValueIdx.ix3 mm b (0 : Fin 1)) (ValueIdx.ix3 b mm (0 : Fin 1))
    (fun a => match a with | ⟨0, _⟩ => rfl | ⟨1, _⟩ => rfl | ⟨2, _⟩ => rfl)

theorem V_v6_apply_q (c : Dev nD) (h o : Fin 1024) :
    (V m c main_v6 : S1024x3072.Idx → EReal) (ValueIdx.ix2 h (⟨o.val, by omega⟩ : Fin 3072))
      = (m ((c : Thread nD τ).loc main_arg2) : S1024x1024.Idx → EReal) (ValueIdx.ix2 o h) := by
  rw [V_v6_eq]
  refine (concatenate_apply_piece (1 : Fin S1024x3072.rank) _ _ _ 0 (by show (0 : ℕ) < 3; decide) S1024x1024
    (wT (m ((c : Thread nD τ).loc main_arg2))) rfl rfl 0 rfl (ValueIdx.ix2 h o)
    (fun a ha => match a, ha with | ⟨0, _⟩, _ => rfl | ⟨1, _⟩, ha => absurd rfl ha) (Nat.zero_add _)).trans ?_
  exact wT_apply _ h o
theorem V_v6_apply_k (c : Dev nD) (h o : Fin 1024) :
    (V m c main_v6 : S1024x3072.Idx → EReal) (ValueIdx.ix2 h (⟨1024 + o.val, by omega⟩ : Fin 3072))
      = (m ((c : Thread nD τ).loc main_arg4) : S1024x1024.Idx → EReal) (ValueIdx.ix2 o h) := by
  rw [V_v6_eq]
  refine (concatenate_apply_piece (1 : Fin S1024x3072.rank) _ _ _ 1 (by show (1 : ℕ) < 3; decide) S1024x1024
    (wT (m ((c : Thread nD τ).loc main_arg4))) rfl rfl 1024 rfl (ValueIdx.ix2 h o)
    (fun a ha => match a, ha with | ⟨0, _⟩, _ => rfl | ⟨1, _⟩, ha => absurd rfl ha) rfl).trans ?_
  exact wT_apply _ h o
theorem V_v6_apply_v (c : Dev nD) (h o : Fin 1024) :
    (V m c main_v6 : S1024x3072.Idx → EReal) (ValueIdx.ix2 h (⟨2048 + o.val, by omega⟩ : Fin 3072))
      = (m ((c : Thread nD τ).loc main_arg6) : S1024x1024.Idx → EReal) (ValueIdx.ix2 o h) := by
  rw [V_v6_eq]
  refine (concatenate_apply_piece (1 : Fin S1024x3072.rank) _ _ _ 2 (by show (2 : ℕ) < 3; decide) S1024x1024
    (wT (m ((c : Thread nD τ).loc main_arg6))) rfl rfl 2048 rfl (ValueIdx.ix2 h o)
    (fun a ha => match a, ha with | ⟨0, _⟩, _ => rfl | ⟨1, _⟩, ha => absurd rfl ha) rfl).trans ?_
  exact wT_apply _ h o

theorem V_v7_apply_q (c : Dev nD) (o : Fin 1024) :
    (V m c main_v7 : S3072.Idx → EReal) (ValueIdx.ix1 (⟨o.val, by omega⟩ : Fin 3072))
      = (m ((c : Thread nD τ).loc main_arg3) : S1024.Idx → EReal) (ValueIdx.ix1 o) := by
  rw [V_v7_eq]
  exact concatenate_apply_piece (0 : Fin S3072.rank) _ _ _ 0 (by show (0 : ℕ) < 3; decide) S1024
    (m ((c : Thread nD τ).loc main_arg3)) rfl rfl 0 rfl (ValueIdx.ix1 o)
    (fun a ha => match a, ha with | ⟨0, _⟩, ha => absurd rfl ha) (Nat.zero_add _)
theorem V_v7_apply_k (c : Dev nD) (o : Fin 1024) :
    (V m c main_v7 : S3072.Idx → EReal) (ValueIdx.ix1 (⟨1024 + o.val, by omega⟩ : Fin 3072))
      = (m ((c : Thread nD τ).loc main_arg5) : S1024.Idx → EReal) (ValueIdx.ix1 o) := by
  rw [V_v7_eq]
  exact concatenate_apply_piece (0 : Fin S3072.rank) _ _ _ 1 (by show (1 : ℕ) < 3; decide) S1024
    (m ((c : Thread nD τ).loc main_arg5)) rfl rfl 1024 rfl (ValueIdx.ix1 o)
    (fun a ha => match a, ha with | ⟨0, _⟩, ha => absurd rfl ha) rfl
theorem V_v7_apply_v (c : Dev nD) (o : Fin 1024) :
    (V m c main_v7 : S3072.Idx → EReal) (ValueIdx.ix1 (⟨2048 + o.val, by omega⟩ : Fin 3072))
      = (m ((c : Thread nD τ).loc main_arg7) : S1024.Idx → EReal) (ValueIdx.ix1 o) := by
  rw [V_v7_eq]
  exact concatenate_apply_piece (0 : Fin S3072.rank) _ _ _ 2 (by show (2 : ℕ) < 3; decide) S1024
    (m ((c : Thread nD τ).loc main_arg7)) rfl rfl 2048 rfl (ValueIdx.ix1 o)
    (fun a ha => match a, ha with | ⟨0, _⟩, ha => absurd rfl ha) rfl

theorem V_v9_apply (c : Dev nD) (o j : Fin 1024) :
    (V m c main_v9 : S1024x1024.Idx → EReal) (ValueIdx.ix2 o j)
      = (m ((c : Thread nD τ).loc main_arg8) : S1024x1024.Idx → EReal) (ValueIdx.ix2 j o) := by
  rw [V_v9_eq]
  exact wT_apply _ o j

end Cert.KernelIdeal.HostValue

end
-- ==== Proof.KernelValue.lean ====
/-
  The result array after the run, as one function of the argument arrays.

  The pipeline's tile `t` stages rows [256 t, 256 t + 256) of the modality-first features and confidences and the
  whole weight and bias arrays, and writes back rows [256 t, 256 t + 256) of the result. So row `r` of what tile `t`
  writes is the fused attention of batch row 256 t + r of the argument arrays, the 32 tiles cover the 8192 rows,
  and the result array ends as that function of the arguments at every index.
-/
import proofs.«411035_j70385924046872_3_alg».proof.Proof.FrameKernelIdeal
import proofs.«411035_j70385924046872_3_alg».proof.Proof.KernelBody
import proofs.«411035_j70385924046872_3_alg».proof.Proof.KernelHost
import proofs.«411035_j70385924046872_3_alg».proof.Proof.AttnRow
import Idealize.ShloMosaic.Lib.Pipeline.Value
import Idealize.ShloMosaic.Lib.ValueIdx

set_option maxRecDepth 16384

noncomputable section

namespace Cert.KernelIdeal.ArrayValue

open Cert.KernelIdeal Cert.KernelIdeal.Gen Cert.KernelIdeal.Frame Cert.AttnRow
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The printed index maps over the 32 tiles: the feature and confidence windows and the result window move along
    the batch axis with the tile; the weight and bias windows stay. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Batch row `256 t + r`. -/
def brow (t : Fin cfg0.N) (r : Fin 256) : Fin 8192 := ⟨t.val * 256 + r.val, by have := t.isLt; have := r.isLt; have h : cfg0.N = 32 := N_0; omega⟩

/-! ## The blocks the body reads at tile `t` -/

theorem iblk0_apply (c : Dev nD) (t : Fin cfg0.N) (mm : Fin 4) (r : Fin 256) (h : Fin 1024) :
    (iblk m c 0 t : S4x256x1024.Idx → EReal) (ValueIdx.ix3 mm r h)
      = (V m c main_v10 : S4x8192x1024.Idx → EReal) (ValueIdx.ix3 mm (brow t r) h) := by
  obtain ⟨e0, e1, e2, -⟩ := idx_facts t
  show (V m c main_v10 : S4x8192x1024.Idx → EReal) (((cfg0.win 0).blk t).view.emb (ValueIdx.ix3 mm r h)) = _
  refine congrArg _ (funext fun a => Fin.ext ?_)
  match a with
  | ⟨0, _⟩ => show win0_0.index t (0 : Fin 3) * 4 + 1 * mm.val = mm.val; omega
  | ⟨1, _⟩ => show win0_0.index t (1 : Fin 3) * 256 + 1 * r.val = t.val * 256 + r.val; omega
  | ⟨2, _⟩ => show win0_0.index t (2 : Fin 3) * 1024 + 1 * h.val = h.val; omega

theorem iblk1_apply (c : Dev nD) (t : Fin cfg0.N) (mm : Fin 4) (r : Fin 256) :
    (iblk m c 1 t : S4x256x1.Idx → EReal) (ValueIdx.ix3 mm r (0 : Fin 1))
      = (V m c main_v11 : S4x8192x1.Idx → EReal) (ValueIdx.ix3 mm (brow t r) (0 : Fin 1)) := by
  obtain ⟨-, -, -, e0, e1, e2, -⟩ := idx_facts t
  show (V m c main_v11 : S4x8192x1.Idx → EReal) (((cfg0.win 1).blk t).view.emb (ValueIdx.ix3 mm r (0 : Fin 1))) = _
  refine congrArg _ (funext fun a => Fin.ext ?_)
  match a with
  | ⟨0, _⟩ => show win0_1.index t (0 : Fin 3) * 4 + 1 * mm.val = mm.val; omega
  | ⟨1, _⟩ => show win0_1.index t (1 : Fin 3) * 256 + 1 * r.val = t.val * 256 + r.val; omega
  | ⟨2, _⟩ => show win0_1.index t (2 : Fin 3) * 1 + 1 * 0 = 0; omega

theorem iblk2_apply (c : Dev nD) (t : Fin cfg0.N) (y : S1024x3072.Idx) :
    (iblk m c 2 t : S1024x3072.Idx → EReal) y = (V m c main_v6 : S1024x3072.Idx → EReal) y := by
  obtain ⟨-, -, -, -, -, -, e0, e1, -⟩ := idx_facts t
  show (V m c main_v6 : S1024x3072.Idx → EReal) (((cfg0.win 2).blk t).view.emb y) = _
  refine congrArg _ (funext fun a => Fin.ext ?_)
  match a with
  | ⟨0, _⟩ => show win0_2.index t (0 : Fin 2) * 1024 + 1 * (y 0).val = (y 0).val; omega
  | ⟨1, _⟩ => show win0_2.index t (1 : Fin 2) * 3072 + 1 * (y 1).val = (y 1).val; omega

theorem iblk3_apply (c : Dev nD) (t : Fin cfg0.N) (y : S3072.Idx) :
    (iblk m c 3 t : S3072.Idx → EReal) y = (V m c main_v7 : S3072.Idx → EReal) y := by
  obtain ⟨-, -, -, -, -, -, -, -, e0, -⟩ := idx_facts t
  show (V m c main_v7 : S3072.Idx → EReal) (((cfg0.win 3).blk t).view.emb y) = _
  refine congrArg _ (funext fun a => Fin.ext ?_)
  match a with
  | ⟨0, _⟩ => show win0_3.index t (0 : Fin 1) * 3072 + 1 * (y 0).val = (y 0).val; omega

theorem iblk4_apply (c : Dev nD) (t : Fin cfg0.N) (y : S1024x1024.Idx) :
    (iblk m c 4 t : S1024x1024.Idx → EReal) y = (V m c main_v9 : S1024x1024.Idx → EReal) y := by
  obtain ⟨-, -, -, -, -, -, -, -, -, e0, e1, -⟩ := idx_facts t
  show (V m c main_v9 : S1024x1024.Idx → EReal) (((cfg0.win 4).blk t).view.emb y) = _
  refine congrArg _ (funext fun a => Fin.ext ?_)
  match a with
  | ⟨0, _⟩ => show win0_4.index t (0 : Fin 2) * 1024 + 1 * (y 0).val = (y 0).val; omega
  | ⟨1, _⟩ => show win0_4.index t (1 : Fin 2) * 1024 + 1 * (y 1).val = (y 1).val; omega

theorem iblk5_apply (c : Dev nD) (t : Fin cfg0.N) (y : S1024.Idx) :
    (iblk m c 5 t : S1024.Idx → EReal) y = (m ((c : Thread nD τ).loc main_arg9) : S1024.Idx → EReal) y := by
  obtain ⟨-, -, -, -, -, -, -, -, -, -, -, e0, -⟩ := idx_facts t
  show (V m c main_arg9 : S1024.Idx → EReal) (((cfg0.win 5).blk t).view.emb y) = _
  rw [V_main_arg9]
  refine congrArg _ (funext fun a => Fin.ext ?_)
  match a with
  | ⟨0, _⟩ => show win0_5.index t (0 : Fin 1) * 1024 + 1 * (y 0).val = (y 0).val; omega

/-! ## Row `r` of tile `t` is batch row `256 t + r`; the staged weights are the argument weights -/

theorem row_eq (c : Dev nD) (t : Fin cfg0.N) (r : Fin 256) :
    rowOfBlocks (iblk m c 0 t) (iblk m c 1 t) r = rowOfArgs (m ((c : Thread nD τ).loc main_arg0)) (m ((c : Thread nD τ).loc main_arg1)) (brow t r) := by
  have e0 : ∀ (mm : Fin 4) (h : Fin 1024), (iblk m c 0 t : S4x256x1024.Idx → EReal) (ValueIdx.ix3 mm r h)
      = (m ((c : Thread nD τ).loc main_arg0)) (ValueIdx.ix3 (brow t r) mm h) :=
    fun mm h => (iblk0_apply m c t mm r h).trans (HostValue.V_v10_apply m c mm (brow t r) h)
  have e1 : ∀ (mm : Fin 4), (iblk m c 1 t : S4x256x1.Idx → EReal) (ValueIdx.ix3 mm r (0 : Fin 1))
      = (m ((c : Thread nD τ).loc main_arg1)) (ValueIdx.ix3 (brow t r) mm (0 : Fin 1)) :=
    fun mm => (iblk1_apply m c t mm r).trans (HostValue.V_v11_apply m c mm (brow t r))
  unfold rowOfBlocks rowOfArgs
  simp only [e0, e1]

theorem wts_eq (c : Dev nD) (t : Fin cfg0.N) :
    wtsOfBlocks (iblk m c 2 t) (iblk m c 3 t) (iblk m c 4 t) (iblk m c 5 t)
      = wtsOfArgs (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have q1 : ∀ (o h : Fin 1024), (iblk m c 2 t : S1024x3072.Idx → EReal) (ValueIdx.ix2 h (⟨o.val, by omega⟩ : Fin 3072)) = (m ((c : Thread nD τ).loc main_arg2)) (ValueIdx.ix2 o h) :=
    fun o h => (iblk2_apply m c t _).trans (HostValue.V_v6_apply_q m c h o)
  have q2 : ∀ (o : Fin 1024), (iblk m c 3 t : S3072.Idx → EReal) (ValueIdx.ix1 (⟨o.val, by omega⟩ : Fin 3072)) = (m ((c : Thread nD τ).loc main_arg3)) (ValueIdx.ix1 o) :=
    fun o => (iblk3_apply m c t _).trans (HostValue.V_v7_apply_q m c o)
  have k1 : ∀ (o h : Fin 1024), (iblk m c 2 t : S1024x3072.Idx → EReal) (ValueIdx.ix2 h (⟨1024 + o.val, by omega⟩ : Fin 3072)) = (m ((c : Thread nD τ).loc main_arg4)) (ValueIdx.ix2 o h) :=
    fun o h => (iblk2_apply m c t _).trans (HostValue.V_v6_apply_k m c h o)
  have k2 : ∀ (o : Fin 1024), (iblk m c 3 t : S3072.Idx → EReal) (ValueIdx.ix1 (⟨1024 + o.val, by omega⟩ : Fin 3072)) = (m ((c : Thread nD τ).loc main_arg5)) (ValueIdx.ix1 o) :=
    fun o => (iblk3_apply m c t _).trans (HostValue.V_v7_apply_k m c o)
  have v1 : ∀ (o h : Fin 1024), (iblk m c 2 t : S1024x3072.Idx → EReal) (ValueIdx.ix2 h (⟨2048 + o.val, by omega⟩ : Fin 3072)) = (m ((c : Thread nD τ).loc main_arg6)) (ValueIdx.ix2 o h) :=
    fun o h => (iblk2_apply m c t _).trans (HostValue.V_v6_apply_v m c h o)
  have v2 : ∀ (o : Fin 1024), (iblk m c 3 t : S3072.Idx → EReal) (ValueIdx.ix1 (⟨2048 + o.val, by omega⟩ : Fin 3072)) = (m ((c : Thread nD τ).loc main_arg7)) (ValueIdx.ix1 o) :=
    fun o => (iblk3_apply m c t _).trans (HostValue.V_v7_apply_v m c o)
  have o1 : ∀ (j o : Fin 1024), (iblk m c 4 t : S1024x1024.Idx → EReal) (ValueIdx.ix2 o j) = (m ((c : Thread nD τ).loc main_arg8)) (ValueIdx.ix2 j o) :=
    fun j o => (iblk4_apply m c t _).trans (HostValue.V_v9_apply m c o j)
  have o2 : ∀ (j : Fin 1024), (iblk m c 5 t : S1024.Idx → EReal) (ValueIdx.ix1 j) = (m ((c : Thread nD τ).loc main_arg9)) (ValueIdx.ix1 j) :=
    fun j => iblk5_apply m c t _
  unfold wtsOfBlocks wtsOfArgs
  simp only [q1, q2, k1, k2, v1, v2, o1, o2]

/-! ## What a tile writes back, the cover, and the array after the run -/

theorem hz2 : (![0, 0] : Fin 2 → Nat) = fun _ => 0 := funext fun a => by fin_cases a <;> rfl

/-- The result as a function of the argument arrays: each batch row's fused attention. -/
abbrev result (c : Dev nD) : S8192x1024.Idx → EReal :=
  GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- Tile `t` writes back block `t` of `result`. -/
theorem flushed6_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  unfold out0_6
  rw [View.canon_unit_zero hz2]
  obtain ⟨-, -, -, -, -, -, -, -, -, -, -, -, e0, e1⟩ := idx_facts t
  funext y
  obtain ⟨r, j, rfl⟩ : ∃ (r : Fin 256) (j : Fin 1024), y = ValueIdx.ix2 r j := ⟨y 0, y 1, ValueIdx.eq_ix2 y⟩
  show bodyVal (F := Ideal) (iblk m c 0 t) (iblk m c 1 t) (iblk m c 2 t) (iblk m c 3 t) (iblk m c 4 t) (iblk m c 5 t) (ValueIdx.ix2 r j)
    = result m c (((cfg0.win 6).blk t).view.emb (ValueIdx.ix2 r j))
  refine (BodyValue.bodyVal_apply (iblk m c 0 t) (iblk m c 1 t) (iblk m c 2 t) (iblk m c 3 t) (iblk m c 4 t) (iblk m c 5 t) r j).trans ?_
  rw [row_eq, wts_eq]
  have h0 : (((cfg0.win 6).blk t).view.emb (ValueIdx.ix2 r j) : S8192x1024.Idx) 0 = brow t r :=
    Fin.ext (show win0_6.index t (0 : Fin 2) * 256 + 1 * r.val = t.val * 256 + r.val by omega)
  have h1 : (((cfg0.win 6).blk t).view.emb (ValueIdx.ix2 r j) : S8192x1024.Idx) 1 = j :=
    Fin.ext (show win0_6.index t (1 : Fin 2) * 1024 + 1 * j.val = j.val by omega)
  show _ = outRowK (rowOfArgs _ _ ((((cfg0.win 6).blk t).view.emb (ValueIdx.ix2 r j) : S8192x1024.Idx) 0)) _ ((((cfg0.win 6).blk t).view.emb (ValueIdx.ix2 r j) : S8192x1024.Idx) 1)
  rw [h0, h1]

/-- An index of the result is in tile `t`'s block iff each coordinate is in the block's range. -/
theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v12).slice (win0_6.rect t)).set ↔ _
  rw [View.set_slice_whole, Rect.mem_set_unit]
  exact Iff.rfl

/-- Every index of the result is in the block of the tile that holds its row. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 32 := N_0
  let t : Fin cfg0.N := ⟨(i 0).val / 256, by omega⟩
  have ht : t.val = (i 0).val / 256 := rfl
  obtain ⟨-, -, -, -, -, -, -, -, -, -, -, -, e0, e1⟩ := idx_facts t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- The result array after the run. -/
theorem final6 (c : Dev nD) : (dats m 0 c).arrAt 6 cfg0.N = result m c :=
  (dats m 0 c).arrAt_eq_of_cover 6 (result m c) (fun t _ => flushed6_eq m c t) cover6

/-- Every weakly fair execution ends with the result array at `result` of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 6).trans (final6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 5).trans (((dats m 0 c).arrAt_in 5 rfl _).trans ((A_eq m c 5).trans (V_main_arg9 m c)))⟩)
    (run_main m ρ)

end Cert.KernelIdeal.ArrayValue

end
-- ==== Proof.RefValue.lean ====
/-
  The reference's result, read index by index, is the attention-fusion result of each batch row in the quotient
  spelling of the weights.
-/
import proofs.«411035_j70385924046872_3_alg».proof.Proof.Gen.ReferenceIdeal.Run
import proofs.«411035_j70385924046872_3_alg».proof.Proof.Gen.ReferenceIdeal.Read
import proofs.«411035_j70385924046872_3_alg».proof.Proof.AttnRow
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen
open Idealize.ShloMosaic Idealize.ShloMosaic.TcCoe Idealize.SL.Sem
open Idealize.ShloMosaic.ValueIdx
open Cert.ReferenceIdeal.Read
open Cert.AttnRow

/-! ## The maximum of four extended reals as a fold from the bottom -/

/-- The fold of the maximum over the four indices, from the bottom, is the nested maximum of the four values. -/
private theorem fold_max_fin4 (g : Fin 4 → EReal) :
    (Finset.univ : Finset (Fin 4)).fold max (⊥ : EReal) g = max (max (max (g 0) (g 1)) (g 2)) (g 3) := by
  simp only [Fin.univ_succ, Finset.fold_cons, Finset.fold_map, Finset.univ_unique, Finset.fold_singleton]
  show max (g 0) (max (g 1) (max (g 2) (max (g 3) ⊥))) = _
  rw [max_bot_right, max_assoc, max_assoc]

section Stages

variable (x0 : (⟨S8192x4x1024, .f32⟩ : BufTy).Contents (Elt Ideal)) (x1 : (⟨S8192x4x1, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))
  (x8 : (⟨S1024x1024, .f32⟩ : BufTy).Contents (Elt Ideal)) (x9 : (⟨S1024, .f32⟩ : BufTy).Contents (Elt Ideal))

/-- Batch row `b` projected by the argument weights. -/
private abbrev P (b : Fin 8192) : QKV := qkv (rowOfArgs x0 x1 b) (wtsOfArgs x2 x3 x4 x5 x6 x7 x8 x9)

/-! ## Queries, keys and values -/

/-- A product with a weight matrix plus a bias, at (batch row, modality, output feature). -/
private theorem proj_eq (w : (⟨S1024x1024, .f32⟩ : BufTy).Contents (Elt Ideal)) (bias : (⟨S1024, .f32⟩ : BufTy).Contents (Elt Ideal))
    (b : Fin 8192) (m : Fin 4) (o : Fin 1024) :
    (∑ k : Fin 1024, x0 (lidx_main_v0 (ix3 b m o) k) * w (ridx_main_v0 (ix3 b m o) k))
        + bias (idx_main_v1 (idx_main_v2 (ix3 b m o)))
      = proj (rowOfArgs x0 x1 b) (fun o h => w (ix2 o h)) (fun o => bias (ix1 o)) m o := by
  have el : ∀ k : Fin 1024, lidx_main_v0 (ix3 b m o) k = ix3 b m k := fun k =>
    funext fun a => Fin.ext (by match a with | ⟨0, _⟩ => rfl | ⟨1, _⟩ => rfl | ⟨2, _⟩ => rfl)
  have er : ∀ k : Fin 1024, ridx_main_v0 (ix3 b m o) k = ix2 o k := fun k =>
    funext fun a => Fin.ext (by match a with | ⟨0, _⟩ => rfl | ⟨1, _⟩ => rfl)
  have eb : idx_main_v1 (idx_main_v2 (ix3 b m o)) = ix1 o :=
    funext fun a => Fin.ext (by match a with | ⟨0, _⟩ => rfl)
  simp only [el, er, eb]
  rfl

private theorem q_eq (b : Fin 8192) (m : Fin 4) (o : Fin 1024) :
    val_main_v3 (F := Ideal) x0 x2 x3 (ix3 b m o) = (P x0 x1 x2 x3 x4 x5 x6 x7 x8 x9 b).q m o := by
  rw [val_main_v3_apply, val_main_v0_apply, val_main_v2_apply, val_main_v1_apply, Ideal.addf_def]
  exact proj_eq x0 x1 x2 x3 b m o

private theorem k_eq (b : Fin 8192) (m : Fin 4) (o : Fin 1024) :
    val_main_v7 (F := Ideal) x0 x4 x5 (ix3 b m o) = (P x0 x1 x2 x3 x4 x5 x6 x7 x8 x9 b).k m o := by
  rw [val_main_v7_apply, val_main_v4_apply, val_main_v6_apply, val_main_v5_apply, Ideal.addf_def]
  exact proj_eq x0 x1 x4 x5 b m o

private theorem v_eq (b : Fin 8192) (m : Fin 4) (o : Fin 1024) :
    val_main_v11 (F := Ideal) x0 x6 x7 (ix3 b m o) = (P x0 x1 x2 x3 x4 x5 x6 x7 x8 x9 b).v m o := by
  rw [val_main_v11_apply, val_main_v8_apply, val_main_v10_apply, val_main_v9_apply, Ideal.addf_def]
  exact proj_eq x0 x1 x6 x7 b m o

/-! ## The scores -/

private theorem score_eq (b : Fin 8192) (m n : Fin 4) :
    val_main_v17 (F := Ideal) x0 x1 x2 x3 x4 x5 (ix3 b m n) = (P x0 x1 x2 x3 x4 x5 x6 x7 x8 x9 b).score m n := by
  rw [val_main_v17_apply, val_main_v15_apply, val_main_v12_apply, val_main_v14_apply, val_main_v13_apply,
    val_main_cst_apply, val_main_v16_apply, Ideal.mulf_def, Ideal.hostDivf_def, Ideal.hostUnary_sqrt_def,
    Ideal.ofBits_def, ofBits_1024, sqrt_1024, Ideal.div_coe (by norm_num)]
  have el : ∀ k : Fin 1024, lidx_main_v12 (ix3 b m n) k = ix3 b m k := fun k => funext fun a => Fin.ext (by match a with | ⟨0, _⟩ => rfl | ⟨1, _⟩ => rfl | ⟨2, _⟩ => rfl)
  have er : ∀ k : Fin 1024, ridx_main_v12 (ix3 b m n) k = ix3 b n k := fun k => funext fun a => Fin.ext (by match a with | ⟨0, _⟩ => rfl | ⟨1, _⟩ => rfl | ⟨2, _⟩ => rfl)
  have ec : idx_main_v16 (ix3 b m n) = ix3 b m 0 := funext fun a => Fin.ext (by match a with | ⟨0, _⟩ => rfl | ⟨1, _⟩ => rfl | ⟨2, _⟩ => rfl)
  simp only [el, er, ec, q_eq x0 x1 x2 x3 x4 x5 x6 x7 x8 x9, k_eq x0 x1 x2 x3 x4 x5 x6 x7 x8 x9]
  rfl

/-! ## The largest score of a query -/

/-- The index (b, m) of the reduced array with coordinate `k` put back on the last axis is (b, m, k). -/
private theorem lift_ix3 (h : S8192x4x4.Reduces [2] S8192x4) (b : Fin 8192) (m : Fin 4) (k : Fin (S8192x4x4.size 2)) :
    h.lift (ix2 b m) k = ix3 b m (⟨k.val, k.isLt⟩ : Fin 4) := by
  funext c; apply Fin.ext
  match c with
  | ⟨0, _⟩ => rfl
  | ⟨1, _⟩ => rfl
  | ⟨2, _⟩ => rfl

private theorem smax_eq (b : Fin 8192) (m : Fin 4) :
    val_main_v20 (F := Ideal) x0 x1 x2 x3 x4 x5 (ix2 b m) = (P x0 x1 x2 x3 x4 x5 x6 x7 x8 x9 b).smax m := by
  have h : S8192x4x4.Reduces [2] S8192x4 := by decide
  rw [val_main_v20_apply, val_main_v19_apply, val_main_cst_1_apply, Ideal.maximumf_def, Ideal.ofBits_def,
    ofBits_neg_inf, max_bot_left]
  unfold val_main_v18
  rw [Host.reduce_eq_fold_single (FloatOps.maximumf (F := Ideal) (φ := .f32)) (val_main_v17 (F := Ideal) x0 x1 x2 x3 x4 x5)
    (val_main_cst_0 (F := Ideal)) reducesTo_S8192x4x4_S8192x4_d2 h h_S_, val_main_cst_0_apply, Ideal.ofBits_def,
    ofBits_neg_inf]
  have hf : (val_main_v17 (F := Ideal) x0 x1 x2 x3 x4 x5 ∘ h.lift (ix2 b m)) = fun k : Fin 4 => (P x0 x1 x2 x3 x4 x5 x6 x7 x8 x9 b).score m k :=
    funext fun k => (congrArg (val_main_v17 (F := Ideal) x0 x1 x2 x3 x4 x5) (lift_ix3 h b m k)).trans
      (score_eq x0 x1 x2 x3 x4 x5 x6 x7 x8 x9 b m _)
  refine Eq.trans ?_ (fold_max_fin4 fun k : Fin 4 => (P x0 x1 x2 x3 x4 x5 x6 x7 x8 x9 b).score m k)
  exact congrArg (fun f => Finset.fold max (⊥ : EReal) f (Finset.univ : Finset (Fin 4))) hf

/-! ## The stabilised exponentials, their sum and the weights -/

private theorem ex_eq (b : Fin 8192) (m n : Fin 4) :
    val_main_v24 (F := Ideal) x0 x1 x2 x3 x4 x5 (ix3 b m n) = (P x0 x1 x2 x3 x4 x5 x6 x7 x8 x9 b).ex m n := by
  rw [val_main_v24_apply, val_main_v23_apply, val_main_v22_apply, val_main_v21_apply, Ideal.hostUnary_exp_def,
    Ideal.subf_def, score_eq x0 x1 x2 x3 x4 x5 x6 x7 x8 x9]
  have e : idx_main_v21 (idx_main_v22 (ix3 b m n)) = ix2 b m := funext fun a => Fin.ext (by match a with | ⟨0, _⟩ => rfl | ⟨1, _⟩ => rfl)
  rw [e, smax_eq x0 x1 x2 x3 x4 x5 x6 x7 x8 x9]
  rfl

private theorem den_eq (b : Fin 8192) (m : Fin 4) :
    val_main_v25 (F := Ideal) x0 x1 x2 x3 x4 x5 (ix2 b m) = (P x0 x1 x2 x3 x4 x5 x6 x7 x8 x9 b).den m := by
  rw [val_main_v25_apply, val_main_cst_2_apply, Ideal.ofBits_def, ofBits_zero, zero_add]
  have e : ∀ k : Fin 4, idx_main_v25 (ix2 b m) k = ix3 b m k := fun k => funext fun a => Fin.ext (by match a with | ⟨0, _⟩ => rfl | ⟨1, _⟩ => rfl | ⟨2, _⟩ => rfl)
  simp only [e, ex_eq x0 x1 x2 x3 x4 x5 x6 x7 x8 x9]
  rfl

private theorem wt_eq (b : Fin 8192) (m n : Fin 4) :
    val_main_v28 (F := Ideal) x0 x1 x2 x3 x4 x5 (ix3 b m n) = (P x0 x1 x2 x3 x4 x5 x6 x7 x8 x9 b).wtR m n := by
  rw [val_main_v28_apply, val_main_v27_apply, val_main_v26_apply, Ideal.hostDivf_def, ex_eq x0 x1 x2 x3 x4 x5 x6 x7 x8 x9]
  have e : idx_main_v26 (idx_main_v27 (ix3 b m n)) = ix2 b m := funext fun a => Fin.ext (by match a with | ⟨0, _⟩ => rfl | ⟨1, _⟩ => rfl)
  rw [e, den_eq x0 x1 x2 x3 x4 x5 x6 x7 x8 x9]
  rfl

/-! ## The mixtures and their mean -/

private theorem att_eq (b : Fin 8192) (m : Fin 4) (o : Fin 1024) :
    val_main_v29 (F := Ideal) x0 x1 x2 x3 x4 x5 x6 x7 (ix3 b m o) = (P x0 x1 x2 x3 x4 x5 x6 x7 x8 x9 b).att (P x0 x1 x2 x3 x4 x5 x6 x7 x8 x9 b).wtR m o := by
  rw [val_main_v29_apply]
  have el : ∀ k : Fin 4, lidx_main_v29 (ix3 b m o) k = ix3 b m k := fun k => funext fun a => Fin.ext (by match a with | ⟨0, _⟩ => rfl | ⟨1, _⟩ => rfl | ⟨2, _⟩ => rfl)
  have er : ∀ k : Fin 4, ridx_main_v29 (ix3 b m o) k = ix3 b k o := fun k => funext fun a => Fin.ext (by match a with | ⟨0, _⟩ => rfl | ⟨1, _⟩ => rfl | ⟨2, _⟩ => rfl)
  simp only [el, er, wt_eq x0 x1 x2 x3 x4 x5 x6 x7 x8 x9, v_eq x0 x1 x2 x3 x4 x5 x6 x7 x8 x9]
  rfl

private theorem fused_eq (b : Fin 8192) (o : Fin 1024) :
    val_main_v32 (F := Ideal) x0 x1 x2 x3 x4 x5 x6 x7 (ix2 b o) = (P x0 x1 x2 x3 x4 x5 x6 x7 x8 x9 b).fused (P x0 x1 x2 x3 x4 x5 x6 x7 x8 x9 b).wtR o := by
  rw [val_main_v32_apply, val_main_v30_apply, val_main_v31_apply, val_main_cst_3_apply, val_main_cst_4_apply,
    Ideal.hostDivf_def]
  simp only [Ideal.ofBits_def, ofBits_zero, ofBits_four, zero_add]
  rw [Ideal.div_coe (by norm_num)]
  have e : ∀ k : Fin 4, idx_main_v30 (ix2 b o) k = ix3 b k o := fun k => funext fun a => Fin.ext (by match a with | ⟨0, _⟩ => rfl | ⟨1, _⟩ => rfl | ⟨2, _⟩ => rfl)
  simp only [e, att_eq x0 x1 x2 x3 x4 x5 x6 x7 x8 x9]
  rfl

/-! ## The output projection -/

private theorem out_eq (b : Fin 8192) (j : Fin 1024) :
    val_main_v37 (F := Ideal) x0 x1 x2 x3 x4 x5 x6 x7 x8 x9 (ix2 b j) = (P x0 x1 x2 x3 x4 x5 x6 x7 x8 x9 b).outR j := by
  rw [val_main_v37_apply, val_main_v34_apply, val_main_v36_apply, val_main_v35_apply, Ideal.addf_def]
  have el : ∀ k : Fin 1024, lidx_main_v34 (ix2 b j) k = ix2 b k := fun k => funext fun a => Fin.ext (by match a with | ⟨0, _⟩ => rfl | ⟨1, _⟩ => rfl)
  have er : ∀ k : Fin 1024, idx_main_v33 (ridx_main_v34 (ix2 b j) k) = ix2 j k := fun k => funext fun a => Fin.ext (by match a with | ⟨0, _⟩ => rfl | ⟨1, _⟩ => rfl)
  have eb : idx_main_v35 (idx_main_v36 (ix2 b j)) = ix1 j := funext fun a => Fin.ext (by match a with | ⟨0, _⟩ => rfl)
  simp only [val_main_v33_apply, el, er, eb, fused_eq x0 x1 x2 x3 x4 x5 x6 x7 x8 x9]
  rfl

end Stages

/-- The reference's composed term is `GR` of the argument arrays. -/
theorem res_eq_GR (m : (ℓ : Loc nD τ sig) → Buf (Elt Ideal) ℓ) (c : Dev nD) :
    (Cert.ReferenceIdeal.Value.res_main_v37 (F := Ideal) m c : S8192x1024.Idx → EReal)
      = Cert.AttnRow.GR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  funext i
  obtain ⟨b, j, rfl⟩ : ∃ (b : Fin 8192) (j : Fin 1024), i = ValueIdx.ix2 b j := ⟨i 0, i 1, ValueIdx.eq_ix2 i⟩
  rw [Read.val_main_v37_eq]
  exact out_eq _ _ _ _ _ _ _ _ _ _ b j

end Cert.ReferenceIdeal.RefValue

end
-- ==== Proof.FiniteInputs.lean ====
/-
  Under the precondition every entry of the feature, confidence, query and key arrays is a real number, so every
  batch row with the argument weights is a finite row.
-/
import proofs.«411035_j70385924046872_3_alg».proof.Defs
import proofs.«411035_j70385924046872_3_alg».proof.Proof.Gen.Pre_finite_inputs
import proofs.«411035_j70385924046872_3_alg».proof.Proof.Gen.KernelIdeal
import proofs.«411035_j70385924046872_3_alg».proof.Proof.AttnRow
import Idealize.ShloMosaic.Lib.ValueIdx
import Idealize.ShloMosaic.Lib.ReduceAll

noncomputable section

namespace Cert.KernelIdeal.FiniteInputs

open Cert.KernelIdeal
open Idealize.ShloMosaic Idealize.ShloMosaic.TcCoe Idealize.SL.Sem

/-- The single-precision pattern of +∞ is the top of the extended reals. -/
private theorem ofBits_inf : Ideal.ofBits .f32 0x7F800000#32 = (⊤ : EReal) := by
  simp [Ideal.ofBits, Ideal.ieee]

/-- An extended real whose absolute value lies strictly below +∞ is a real number. -/
private theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The shape without axes has a single index. -/
private instance : Subsingleton Cert.Pre_finite_inputs.S_.Idx := ⟨fun a b => funext fun d => d.elim0⟩

/-- If the conjunction over all entries of "the absolute value lies below +∞" is 1, every entry of the array is a
    real number. -/
private theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1) (i : s.Idx) :
    ∃ r : ℝ, x i = (r : EReal) :=
  real_of_abs_lt (x i) (Host.reduce_andi_all _ _ hr hu ValueIdx.ix0 e i)

/-- The precondition makes every batch row, with the argument weights, a finite row. -/
theorem finite_of_pre (m : (ℓ : Loc nD τ sig) → Buf (Elt Ideal) ℓ)
    (hpre : Cert.Pre_KernelIdeal (hPre_finite_inputs := Cert.Pre_finite_inputs.Gen.facts) m) (c : Dev nD) (b : Fin 8192) :
    Cert.AttnRow.Finite
      (Cert.AttnRow.rowOfArgs (m ((c.tc : Thread nD τ).loc main_arg0)) (m ((c.tc : Thread nD τ).loc main_arg1)) b)
      (Cert.AttnRow.wtsOfArgs (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))) := by
  -- the predicate's single entry is the conjunction of ten conjuncts, one per array
  have h := congrFun (hpre c) ValueIdx.ix0
  dsimp only [Cert.Pre_finite_inputs.fn, Cert.Pre_finite_inputs.fn_part1, Cert.Pre_finite_inputs.fn_part2, andi] at h
  simp only [IntOp.andi_eq_one] at h
  obtain ⟨⟨⟨⟨⟨⟨⟨⟨⟨h0, h1⟩, h2⟩, h3⟩, h4⟩, h5⟩, h6⟩, h7⟩, h8⟩, h9⟩ := h
  -- the first six conjuncts are the features, the confidences, and the query and key weights and biases
  exact
    { feat := fun mo hh => all_real _ _ _ _ h0 _
      conf := fun mo => all_real _ _ _ _ h1 _
      wq := fun o hh => all_real _ _ _ _ h2 _
      bq := fun o => all_real _ _ _ _ h3 _
      wk := fun o hh => all_real _ _ _ _ h4 _
      bk := fun o => all_real _ _ _ _ h5 _ }

end Cert.KernelIdeal.FiniteInputs

end
-- ==== Proof.lean ====
/-
  The certificate of the attention-fusion kernel against its reference, over the extended reals.

  Both programs compute, for each of the 8192 batch rows independently, the fused attention of the row's four
  modality vectors: projections to queries, keys and values; scores scaled by the inverse square root of the width
  (the kernel multiplies by 1/32, the reference divides by the square root of 1024) and by the query modality's
  confidence; a softmax over the four keys (the kernel multiplies each exponential by one reciprocal of their sum,
  the reference divides each by the sum); the weighted values; their mean (times 1/4 against divided by 4); and
  the output projection. The kernel's narrowings to the 16-bit format are identities on the extended reals, its
  tiling of the batch axis and the order of its sums do not change a sum of extended reals. The one place where
  the two spellings differ on the extended reals is the softmax weight at a vanishing normaliser, which needs an
  infinite score: under the precondition every input is a real number, every score is real, the normaliser is a
  sum of four positive reals, and the two weights are one number.

  The three frames: the kernel's at both instances from its pipeline run, the reference's from its run.
  The idealization rewrote no operation, so it preserves the kernel trivially.
-/
import proofs.«411035_j70385924046872_3_alg».proof.Defs
import proofs.«411035_j70385924046872_3_alg».proof.Proof.Gen.Kernel
import proofs.«411035_j70385924046872_3_alg».proof.Proof.Gen.KernelIdeal
import proofs.«411035_j70385924046872_3_alg».proof.Proof.Gen.ReferenceIdeal
import proofs.«411035_j70385924046872_3_alg».proof.Proof.Gen.Pre_finite_inputs
import proofs.«411035_j70385924046872_3_alg».proof.Proof.Gen.ReferenceIdeal.Run
import proofs.«411035_j70385924046872_3_alg».proof.Proof.Gen.ReferenceIdeal.Read
import proofs.«411035_j70385924046872_3_alg».proof.Proof.FrameKernel
import proofs.«411035_j70385924046872_3_alg».proof.Proof.FrameKernelIdeal
import proofs.«411035_j70385924046872_3_alg».proof.Proof.KernelValue
import proofs.«411035_j70385924046872_3_alg».proof.Proof.RefValue
import proofs.«411035_j70385924046872_3_alg».proof.Proof.FiniteInputs
import proofs.«411035_j70385924046872_3_alg».proof.Proof.AttnRow
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments the kernel ends with each batch row's fused attention in the
    reciprocal spelling and the reference in the quotient spelling; on the finite rows the precondition gives,
    they are one array. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  refine (Cert.ReferenceIdeal.RefValue.res_eq_GR m' c).trans ?_
  rw [h0, h1, h2, h3, h4, h5, h6, h7, h8, h9]
  funext i
  exact (Cert.AttnRow.outRowK_eq_outRowR (Cert.KernelIdeal.FiniteInputs.finite_of_pre m hpre c (i 0)) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
